-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x56x56 : Shape := ⟨4, ![4, 32, 56, 56]⟩
abbrev S64x32x3x3 : Shape := ⟨4, ![64, 32, 3, 3]⟩
abbrev S_ : Shape := ⟨0, ![]⟩

class Facts : Prop where
  bcast_S_S4x32x56x56 : S_.BroadcastsInDim S4x32x56x56 (![] : Fin 0 → Fin S4x32x56x56.rank)
  reducesTo_S4x32x56x56_S_d0_1_2_3 : S4x32x56x56.ReducesTo [0, 1, 2, 3] S_
  h_S_ : 0 < S_.numel
  bcast_S_S64x32x3x3 : S_.BroadcastsInDim S64x32x3x3 (![] : Fin 0 → Fin S64x32x3x3.rank)
  reducesTo_S64x32x3x3_S_d0_1_2_3 : S64x32x3x3.ReducesTo [0, 1, 2, 3] S_

variable [Facts]

def fn {F : FTy → Type} [FloatOps F] (main_arg0 : FVec F S4x32x56x56 .f32) (main_arg1 : FVec F S64x32x3x3 .f32) : IVec S_ 1 :=
  let main_v0 : FVec F S4x32x56x56 .f32 := Host.absf main_arg0
  let main_cst : FVec F S_ .f32 := constant S_ .f32 0x7F800000#32
  let main_v1 : FVec F S4x32x56x56 .f32 := broadcastInDim S4x32x56x56 ![] bcast_S_S4x32x56x56 main_cst
  let main_v2 : IVec S4x32x56x56 1 := cmpf .olt main_v0 main_v1
  let main_c : IVec S_ 1 := constantI S_ 1 1#1
  let main_v3 : IVec S_ 1 := (fun x v => Host.reduce IntOp.andi x v reducesTo_S4x32x56x56_S_d0_1_2_3 h_S_) main_v2 main_c
  let main_v4 : FVec F S64x32x3x3 .f32 := Host.absf main_arg1
  let main_cst_0 : FVec F S_ .f32 := constant S_ .f32 0x7F800000#32
  let main_v5 : FVec F S64x32x3x3 .f32 := broadcastInDim S64x32x3x3 ![] bcast_S_S64x32x3x3 main_cst_0
  let main_v6 : IVec S64x32x3x3 1 := cmpf .olt main_v4 main_v5
  let main_c_1 : IVec S_ 1 := constantI S_ 1 1#1
  let main_v7 : IVec S_ 1 := (fun x v => Host.reduce IntOp.andi x v reducesTo_S64x32x3x3_S_d0_1_2_3 h_S_) main_v6 main_c_1
  let main_v8 : IVec S_ 1 := andi main_v3 main_v7
  main_v8
-- ==== Kernel.lean ====
abbrev S4x32x56x56 : Shape := ⟨4, ![4, 32, 56, 56]⟩
abbrev S64x32x3x3 : Shape := ⟨4, ![64, 32, 3, 3]⟩
abbrev S_ : Shape := ⟨0, ![]⟩
abbrev S4x32x58x58 : Shape := ⟨4, ![4, 32, 58, 58]⟩
abbrev S64x32x9 : Shape := ⟨3, ![64, 32, 9]⟩
abbrev S64x9x32 : Shape := ⟨3, ![64, 9, 32]⟩
abbrev S4x64x56x56 : Shape := ⟨4, ![4, 64, 56, 56]⟩
abbrev S1x32x58x58 : Shape := ⟨4, ![1, 32, 58, 58]⟩
abbrev S1x64x56x56 : Shape := ⟨4, ![1, 64, 56, 56]⟩
abbrev S64x56x56 : Shape := ⟨3, ![64, 56, 56]⟩
abbrev S32x58x58 : Shape := ⟨3, ![32, 58, 58]⟩
abbrev S32x56x56 : Shape := ⟨3, ![32, 56, 56]⟩
abbrev S64x1x32 : Shape := ⟨3, ![64, 1, 32]⟩
abbrev S64x32 : Shape := ⟨2, ![64, 32]⟩
abbrev S4x56x56 : Shape := ⟨3, ![4, 56, 56]⟩
abbrev S64x4 : Shape := ⟨2, ![64, 4]⟩
abbrev S64x4x1x1 : Shape := ⟨4, ![64, 4, 1, 1]⟩
abbrev S1x4x56x56 : Shape := ⟨4, ![1, 4, 56, 56]⟩
abbrev S64x4x56x56 : Shape := ⟨4, ![64, 4, 56, 56]⟩

abbrev nBuf : Space → Nat
  | .hbm => 17
  | .vmem => 6
  | .smem => 0
  | _ => 0

abbrev bufTy : (tb : Table) → Fin (tcTables nBuf tb) → BufTy
  | .hbm, ⟨0, _⟩ => ⟨S4x32x56x56, .f32⟩
  | .hbm, ⟨1, _⟩ => ⟨S64x32x3x3, .f32⟩
  | .hbm, ⟨2, _⟩ => ⟨S64x32x3x3, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S_, .f32⟩
  | .hbm, ⟨9, _⟩ => ⟨S4x32x58x58, .f32⟩
  | .hbm, ⟨10, _⟩ => ⟨S4x32x58x58, .f32⟩
  | .hbm, ⟨11, _⟩ => ⟨S4x32x58x58, .f32⟩
  | .hbm, ⟨12, _⟩ => ⟨S64x32x9, .f32⟩
  | .hbm, ⟨13, _⟩ => ⟨S64x9x32, .f32⟩
  | .hbm, ⟨14, _⟩ => ⟨S64x9x32, .f32⟩
  | .hbm, ⟨15, _⟩ => ⟨S64x9x32, .f32⟩
  | .hbm, ⟨16, _⟩ => ⟨S4x64x56x56, .f32⟩
  | .local _ .vmem, ⟨0, _⟩ => ⟨S1x32x58x58, .f32⟩
  | .local _ .vmem, ⟨1, _⟩ => ⟨S1x32x58x58, .f32⟩
  | .local _ .vmem, ⟨2, _⟩ => ⟨S64x9x32, .f32⟩
  | .local _ .vmem, ⟨3, _⟩ => ⟨S1x64x56x56, .f32⟩
  | .local _ .vmem, ⟨4, _⟩ => ⟨S1x64x56x56, .f32⟩
  | .local _ .vmem, ⟨5, _⟩ => ⟨S64x56x56, .f32⟩
  | _, _ => ⟨S4x32x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x58x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S64x32x3x3_S_d0_1_2_3 : S64x32x3x3.ReducesTo [0, 1, 2, 3] S_
  h_S_ : 0 < S_.numel
  pads_S4x32x56x56_S4x32x58x58_000_000_110_110 : S4x32x56x56.Pads (![0, 0, 1, 1] : Fin 4 → Nat) ![0, 0, 1, 1] ![0, 0, 0, 0] S4x32x58x58
  bcast_S_S4x32x58x58 : S_.BroadcastsInDim S4x32x58x58 (![] : Fin 0 → Fin S4x32x58x58.rank)
  shapeCasts_S64x32x3x3_S64x32x9 : S64x32x3x3.ShapeCasts S64x32x9
  transposes_S64x32x9_S64x9x32_0_2_1 : S64x32x9.Transposes [0, 2, 1] S64x9x32
  bcast_S_S64x9x32 : S_.BroadcastsInDim S64x9x32 (![] : Fin 0 → Fin S64x9x32.rank)
  inb_S64x56x56_S64x56x56_0_0_0 : ∀ a, (![0, 0, 0] : Fin 3 → Nat) a + S64x56x56.size a ≤ S64x56x56.size a
  h_S64x56x56 : 0 < S64x56x56.numel
  shapeCasts_S64x56x56_S64x56x56 : S64x56x56.ShapeCasts S64x56x56
  inb_S1x32x58x58_S1x32x58x58_0_0_0_0 : ∀ a, (![0, 0, 0, 0] : Fin 4 → Nat) a + S1x32x58x58.size a ≤ S1x32x58x58.size a
  h_S1x32x58x58 : 0 < S1x32x58x58.numel
  shapeCasts_S1x32x58x58_S32x58x58 : S1x32x58x58.ShapeCasts S32x58x58
  inb_S64x9x32_S64x9x32_0_0_0 : ∀ a, (![0, 0, 0] : Fin 3 → Nat) a + S64x9x32.size a ≤ S64x9x32.size a
  h_S64x9x32 : 0 < S64x9x32.numel
  shapeCasts_S64x9x32_S64x9x32 : S64x9x32.ShapeCasts S64x9x32
  slices_S32x58x58_o0_0_0_S32x56x56 : S32x58x58.Slices ![0, 0, 0] S32x56x56
  slices_S64x9x32_o0_0_0_S64x1x32 : S64x9x32.Slices ![0, 0, 0] S64x1x32
  shapeCasts_S64x1x32_S64x32 : S64x1x32.ShapeCasts S64x32
  slices_S32x56x56_o0_0_0_S4x56x56 : S32x56x56.Slices ![0, 0, 0] S4x56x56
  slices_S64x32_o0_0_S64x4 : S64x32.Slices ![0, 0] S64x4
  shapeCasts_S64x4_S64x4x1x1 : S64x4.ShapeCasts S64x4x1x1
  shapeCasts_S4x56x56_S1x4x56x56 : S4x56x56.ShapeCasts S1x4x56x56
  broadcasts_S64x4x1x1_S64x4x56x56 : S64x4x1x1.Broadcasts S64x4x56x56
  broadcasts_S1x4x56x56_S64x4x56x56 : S1x4x56x56.Broadcasts S64x4x56x56
  reduces_S64x4x56x56_S64x56x56 : S64x4x56x56.Reduces [1] S64x56x56
  slices_S32x56x56_o4_0_0_S4x56x56 : S32x56x56.Slices ![4, 0, 0] S4x56x56
  slices_S64x32_o0_4_S64x4 : S64x32.Slices ![0, 4] S64x4
  slices_S32x56x56_o8_0_0_S4x56x56 : S32x56x56.Slices ![8, 0, 0] S4x56x56
  slices_S64x32_o0_8_S64x4 : S64x32.Slices ![0, 8] S64x4
  slices_S32x56x56_o12_0_0_S4x56x56 : S32x56x56.Slices ![12, 0, 0] S4x56x56
  slices_S64x32_o0_12_S64x4 : S64x32.Slices ![0, 12] S64x4
  slices_S32x56x56_o16_0_0_S4x56x56 : S32x56x56.Slices ![16, 0, 0] S4x56x56
  slices_S64x32_o0_16_S64x4 : S64x32.Slices ![0, 16] S64x4
  slices_S32x56x56_o20_0_0_S4x56x56 : S32x56x56.Slices ![20, 0, 0] S4x56x56
  slices_S64x32_o0_20_S64x4 : S64x32.Slices ![0, 20] S64x4
  slices_S32x56x56_o24_0_0_S4x56x56 : S32x56x56.Slices ![24, 0, 0] S4x56x56
  slices_S64x32_o0_24_S64x4 : S64x32.Slices ![0, 24] S64x4
  slices_S32x56x56_o28_0_0_S4x56x56 : S32x56x56.Slices ![28, 0, 0] S4x56x56
  slices_S64x32_o0_28_S64x4 : S64x32.Slices ![0, 28] S64x4
  slices_S32x58x58_o0_0_1_S32x56x56 : S32x58x58.Slices ![0, 0, 1] S32x56x56
  slices_S64x9x32_o0_1_0_S64x1x32 : S64x9x32.Slices ![0, 1, 0] S64x1x32
  slices_S32x58x58_o0_0_2_S32x56x56 : S32x58x58.Slices ![0, 0, 2] S32x56x56
  slices_S64x9x32_o0_2_0_S64x1x32 : S64x9x32.Slices ![0, 2, 0] S64x1x32
  slices_S32x58x58_o0_1_0_S32x56x56 : S32x58x58.Slices ![0, 1, 0] S32x56x56
  slices_S64x9x32_o0_3_0_S64x1x32 : S64x9x32.Slices ![0, 3, 0] S64x1x32
  slices_S32x58x58_o0_1_1_S32x56x56 : S32x58x58.Slices ![0, 1, 1] S32x56x56
  slices_S64x9x32_o0_4_0_S64x1x32 : S64x9x32.Slices ![0, 4, 0] S64x1x32
  slices_S32x58x58_o0_1_2_S32x56x56 : S32x58x58.Slices ![0, 1, 2] S32x56x56
  slices_S64x9x32_o0_5_0_S64x1x32 : S64x9x32.Slices ![0, 5, 0] S64x1x32
  slices_S32x58x58_o0_2_0_S32x56x56 : S32x58x58.Slices ![0, 2, 0] S32x56x56
  slices_S64x9x32_o0_6_0_S64x1x32 : S64x9x32.Slices ![0, 6, 0] S64x1x32
  slices_S32x58x58_o0_2_1_S32x56x56 : S32x58x58.Slices ![0, 2, 1] S32x56x56
  slices_S64x9x32_o0_7_0_S64x1x32 : S64x9x32.Slices ![0, 7, 0] S64x1x32
  slices_S32x58x58_o0_2_2_S32x56x56 : S32x58x58.Slices ![0, 2, 2] S32x56x56
  slices_S64x9x32_o0_8_0_S64x1x32 : S64x9x32.Slices ![0, 8, 0] S64x1x32
  inb_S1x64x56x56_S1x64x56x56_0_0_0_0 : ∀ a, (![0, 0, 0, 0] : Fin 4 → Nat) a + S1x64x56x56.size a ≤ S1x64x56x56.size a
  h_S1x64x56x56 : 0 < S1x64x56x56.numel
  shapeCasts_S1x64x56x56_S64x56x56 : S1x64x56x56.ShapeCasts S64x56x56
  shapeCasts_S64x56x56_S1x64x56x56 : S64x56x56.ShapeCasts S1x64x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x58x58.size a ≤ S4x32x58x58.size a
  hwx0_0 : ∀ i : grid0.Coords, EltTy.bits .f32 = 32 ∨ (Rect.block (s := S4x32x58x58) S1x32x58x58.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x9x32.size a ≤ S64x9x32.size a
  hwx0_1 : ∀ i : grid0.Coords, EltTy.bits .f32 = 32 ∨ (Rect.block (s := S64x9x32) S64x9x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x56x56.size a ≤ S4x64x56x56.size a
  hwx0_2 : ∀ i : grid0.Coords, EltTy.bits .f32 = 32 ∨ (Rect.block (s := S4x64x56x56) S1x64x56x56.size (cc0_transform_2 i) (hinb0_2 i)).WholeWords (EltTy.packing .f32)

variable [Facts₀]

abbrev win0_0 : Pipeline.Window sig grid0 :=
  Pipeline.Window.ofSpec (Memref.whole main_v5) S1x32x58x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x56x56 : Shape := ⟨4, ![4, 32, 56, 56]⟩
abbrev S64x32x3x3 : Shape := ⟨4, ![64, 32, 3, 3]⟩
abbrev S_ : Shape := ⟨0, ![]⟩
abbrev S4x32x58x58 : Shape := ⟨4, ![4, 32, 58, 58]⟩
abbrev S4x32x1x56x56 : Shape := ⟨5, ![4, 32, 1, 56, 56]⟩
abbrev S4x32x9x56x56 : Shape := ⟨5, ![4, 32, 9, 56, 56]⟩
abbrev S4x288x3136 : Shape := ⟨3, ![4, 288, 3136]⟩
abbrev S64x288 : Shape := ⟨2, ![64, 288]⟩
abbrev S4x1x288x3136 : Shape := ⟨4, ![4, 1, 288, 3136]⟩
abbrev S1x64x288x1 : Shape := ⟨4, ![1, 64, 288, 1]⟩
abbrev S4x64x288x3136 : Shape := ⟨4, ![4, 64, 288, 3136]⟩
abbrev S4x64x3136 : Shape := ⟨3, ![4, 64, 3136]⟩
abbrev S4x64x56x56 : Shape := ⟨4, ![4, 64, 56, 56]⟩

abbrev nBuf : Space → Nat
  | .hbm => 41
  | .vmem => 0
  | .smem => 0
  | _ => 0

abbrev bufTy : (tb : Table) → Fin (tcTables nBuf tb) → BufTy
  | .hbm, ⟨0, _⟩ => ⟨S4x32x56x56, .f32⟩
  | .hbm, ⟨1, _⟩ => ⟨S64x32x3x3, .f32⟩
  | .hbm, ⟨2, _⟩ => ⟨S64x32x3x3, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i32⟩
  | .hbm, ⟨8, _⟩ => ⟨S_, .f32⟩
  | .hbm, ⟨9, _⟩ => ⟨S4x32x58x58, .f32⟩
  | .hbm, ⟨10, _⟩ => ⟨S4x32x56x56, .f32⟩
  | .hbm, ⟨11, _⟩ => ⟨S4x32x56x56, .f32⟩
  | .hbm, ⟨12, _⟩ => ⟨S4x32x56x56, .f32⟩
  | .hbm, ⟨13, _⟩ => ⟨S4x32x56x56, .f32⟩
  | .hbm, ⟨14, _⟩ => ⟨S4x32x56x56, .f32⟩
  | .hbm, ⟨15, _⟩ => ⟨S4x32x56x56, .f32⟩
  | .hbm, ⟨16, _⟩ => ⟨S4x32x56x56, .f32⟩
  | .hbm, ⟨17, _⟩ => ⟨S4x32x56x56, .f32⟩
  | .hbm, ⟨18, _⟩ => ⟨S4x32x56x56, .f32⟩
  | .hbm, ⟨19, _⟩ => ⟨S4x32x1x56x56, .f32⟩
  | .hbm, ⟨20, _⟩ => ⟨S4x32x1x56x56, .f32⟩
  | .hbm, ⟨21, _⟩ => ⟨S4x32x1x56x56, .f32⟩
  | .hbm, ⟨22, _⟩ => ⟨S4x32x1x56x56, .f32⟩
  | .hbm, ⟨23, _⟩ => ⟨S4x32x1x56x56, .f32⟩
  | .hbm, ⟨24, _⟩ => ⟨S4x32x1x56x56, .f32⟩
  | .hbm, ⟨25, _⟩ => ⟨S4x32x1x56x56, .f32⟩
  | .hbm, ⟨26, _⟩ => ⟨S4x32x1x56x56, .f32⟩
  | .hbm, ⟨27, _⟩ => ⟨S4x32x1x56x56, .f32⟩
  | .hbm, ⟨28, _⟩ => ⟨S4x32x9x56x56, .f32⟩
  | .hbm, ⟨29, _⟩ => ⟨S4x288x3136, .f32⟩
  | .hbm, ⟨30, _⟩ => ⟨S64x288, .f32⟩
  | .hbm, ⟨31, _⟩ => ⟨S4x1x288x3136, .f32⟩
  | .hbm, ⟨32, _⟩ => ⟨S1x64x288x1, .f32⟩
  | .hbm, ⟨33, _⟩ => ⟨S4x64x288x3136, .f32⟩
  | .hbm, ⟨34, _⟩ => ⟨S4x64x288x3136, .f32⟩
  | .hbm, ⟨35, _⟩ => ⟨S4x64x288x3136, .f32⟩
  | .hbm, ⟨36, _⟩ => ⟨S_, .f32⟩
  | .hbm, ⟨37, _⟩ => ⟨S4x64x3136, .f32⟩
  | .hbm, ⟨38, _⟩ => ⟨S4x64x3136, .f32⟩
  | .hbm, ⟨39, _⟩ => ⟨S4x64x3136, .f32⟩
  | .hbm, ⟨40, _⟩ => ⟨S4x64x56x56, .f32⟩
  | _, _ => ⟨S4x32x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]

class Facts₀ : Prop where
  reducesTo_S64x32x3x3_S_d0_1_2_3 : S64x32x3x3.ReducesTo [0, 1, 2, 3] S_
  h_S_ : 0 < S_.numel
  pads_S4x32x56x56_S4x32x58x58_000_000_110_110 : S4x32x56x56.Pads (![0, 0, 1, 1] : Fin 4 → Nat) ![0, 0, 1, 1] ![0, 0, 0, 0] S4x32x58x58
  slices_S4x32x58x58_S4x32x56x56_0_0_0_0 : S4x32x58x58.Slices ![0, 0, 0, 0] S4x32x56x56
  slices_S4x32x58x58_S4x32x56x56_0_0_0_1 : S4x32x58x58.Slices ![0, 0, 0, 1] S4x32x56x56
  slices_S4x32x58x58_S4x32x56x56_0_0_0_2 : S4x32x58x58.Slices ![0, 0, 0, 2] S4x32x56x56
  slices_S4x32x58x58_S4x32x56x56_0_0_1_0 : S4x32x58x58.Slices ![0, 0, 1, 0] S4x32x56x56
  slices_S4x32x58x58_S4x32x56x56_0_0_1_1 : S4x32x58x58.Slices ![0, 0, 1, 1] S4x32x56x56
  slices_S4x32x58x58_S4x32x56x56_0_0_1_2 : S4x32x58x58.Slices ![0, 0, 1, 2] S4x32x56x56
  slices_S4x32x58x58_S4x32x56x56_0_0_2_0 : S4x32x58x58.Slices ![0, 0, 2, 0] S4x32x56x56
  slices_S4x32x58x58_S4x32x56x56_0_0_2_1 : S4x32x58x58.Slices ![0, 0, 2, 1] S4x32x56x56
  slices_S4x32x58x58_S4x32x56x56_0_0_2_2 : S4x32x58x58.Slices ![0, 0, 2, 2] S4x32x56x56
  bcast_S4x32x56x56_S4x32x1x56x56_0_1_3_4 : S4x32x56x56.BroadcastsInDim S4x32x1x56x56 (![0, 1, 3, 4] : Fin 4 → Fin S4x32x1x56x56.rank)
  concatenates_S4x32x1x56x56_S4x32x1x56x56_S4x32x1x56x56_S4x32x1x56x56_S4x32x1x56x56_S4x32x1x56x56_S4x32x1x56x56_S4x32x1x56x56_S4x32x1x56x56_S4x32x9x56x56_d2 : Shape.Concatenates [S4x32x1x56x56, S4x32x1x56x56, S4x32x1x56x56, S4x32x1x56x56, S4x32x1x56x56, S4x32x1x56x56, S4x32x1x56x56, S4x32x1x56x56, S4x32x1x56x56] S4x32x9x56x56 2
  shapeCasts_S4x32x9x56x56_S4x288x3136 : S4x32x9x56x56.ShapeCasts S4x288x3136
  shapeCasts_S64x32x3x3_S64x288 : S64x32x3x3.ShapeCasts S64x288
  bcast_S4x288x3136_S4x1x288x3136_0_2_3 : S4x288x3136.BroadcastsInDim S4x1x288x3136 (![0, 2, 3] : Fin 3 → Fin S4x1x288x3136.rank)
  bcast_S64x288_S1x64x288x1_1_2 : S64x288.BroadcastsInDim S1x64x288x1 (![1, 2] : Fin 2 → Fin S1x64x288x1.rank)
  bcast_S4x1x288x3136_S4x64x288x3136_0_1_2_3 : S4x1x288x3136.BroadcastsInDim S4x64x288x3136 (![0, 1, 2, 3] : Fin 4 → Fin S4x64x288x3136.rank)
  bcast_S1x64x288x1_S4x64x288x3136_0_1_2_3 : S1x64x288x1.BroadcastsInDim S4x64x288x3136 (![0, 1, 2, 3] : Fin 4 → Fin S4x64x288x3136.rank)
  reducesTo_S4x64x288x3136_S4x64x3136_d2 : S4x64x288x3136.ReducesTo [2] S4x64x3136
  bcast_S_S4x64x3136 : S_.BroadcastsInDim S4x64x3136 (![] : Fin 0 → Fin S4x64x3136.rank)
  shapeCasts_S4x64x3136_S4x64x56x56 : S4x64x3136.ShapeCasts S4x64x56x56

variable [Facts₀]

class Facts : Prop extends Facts₀ where

variable [Facts]
-- ==== Proof.Spec.lean ====
/-
  The mathematics of the min-plus "convolution", with no program in sight.

  For an input x : [4, 32, 56, 56] and weights w : [64, 32, 3, 3] over the extended reals, let
  x̄ be x padded with one ring of zeros on the two image axes, and μ = (Σ |w|) / 18432 the mean
  absolute weight.  The result at (b, o, h, v) is

      μ · Σ_{k < 288} min ( x̄[b, k/9, (k%9)/3 + h, (k%9)%3 + v] , w[o, k/9, (k%9)/3, (k%9)%3] )      (G)

  the 288 = 32·9 patch positions taken channel-major.  The other arrangement scales both
  operands of every minimum by μ first and sums tap-major, channels in eight groups of four:

      Σ_{t < 9} Σ_{g < 8} Σ_{e < 4} min ( w[o, 4g+e, t/3, t%3] · μ , x̄[b, 4g+e, t/3 + h, t%3 + v] · μ )   (K)

  The two agree as soon as μ is a non-negative REAL: multiplication by such a μ is monotone, so it
  commutes with min, and it distributes over every sum of extended reals (no finiteness of the
  summands is needed for that); the rest is a re-indexing of a finite sum in a commutative monoid.
-/
import Idealize.ShloMosaic.Lib.ValueIdx
import Idealize.ShloMosaic.PureOps.Ideal.Laws

noncomputable section

open Idealize.ShloMosaic Idealize.ShloMosaic.ValueIdx
open scoped BigOperators

namespace MinPlusConv

/-- A rank-3 array read at natural-number coordinates: zero outside its box. -/
def at3 {n0 n1 n2 : ℕ} (v : (⟨3, ![n0, n1, n2]⟩ : Shape).Idx → EReal) (a b c : ℕ) : EReal :=
  if h : a < n0 ∧ b < n1 ∧ c < n2 then v (ix3 ⟨a, h.1⟩ ⟨b, h.2.1⟩ ⟨c, h.2.2⟩) else 0

/-- A rank-4 array read at natural-number coordinates: zero outside its box. -/
def at4 {n0 n1 n2 n3 : ℕ} (v : (⟨4, ![n0, n1, n2, n3]⟩ : Shape).Idx → EReal) (a b c d : ℕ) : EReal :=
  if h : a < n0 ∧ b < n1 ∧ c < n2 ∧ d < n3 then v (ix4 ⟨a, h.1⟩ ⟨b, h.2.1⟩ ⟨c, h.2.2.1⟩ ⟨d, h.2.2.2⟩) else 0

theorem at3_ix {n0 n1 n2 : ℕ} (v : (⟨3, ![n0, n1, n2]⟩ : Shape).Idx → EReal) (a : Fin n0) (b : Fin n1) (c : Fin n2) :
    at3 v a b c = v (ix3 a b c) := by
  unfold at3; rw [dif_pos ⟨a.isLt, b.isLt, c.isLt⟩]

theorem at4_ix {n0 n1 n2 n3 : ℕ} (v : (⟨4, ![n0, n1, n2, n3]⟩ : Shape).Idx → EReal) (a : Fin n0) (b : Fin n1) (c : Fin n2)
    (d : Fin n3) : at4 v a b c d = v (ix4 a b c d) := by
  unfold at4; rw [dif_pos ⟨a.isLt, b.isLt, c.isLt, d.isLt⟩]

theorem at3_of_lt {n0 n1 n2 : ℕ} (v : (⟨3, ![n0, n1, n2]⟩ : Shape).Idx → EReal) {a b c : ℕ} (ha : a < n0) (hb : b < n1)
    (hc : c < n2) : at3 v a b c = v (ix3 ⟨a, ha⟩ ⟨b, hb⟩ ⟨c, hc⟩) := by
  unfold at3; rw [dif_pos ⟨ha, hb, hc⟩]

theorem at4_of_lt {n0 n1 n2 n3 : ℕ} (v : (⟨4, ![n0, n1, n2, n3]⟩ : Shape).Idx → EReal) {a b c d : ℕ} (ha : a < n0)
    (hb : b < n1) (hc : c < n2) (hd : d < n3) : at4 v a b c d = v (ix4 ⟨a, ha⟩ ⟨b, hb⟩ ⟨c, hc⟩ ⟨d, hd⟩) := by
  unfold at4; rw [dif_pos ⟨ha, hb, hc, hd⟩]

/-- The image padded with one ring of zeros on its two last axes, at coordinates of the PADDED frame
    (rows and columns 0 and 57 are the ring; `at4` is already zero past the far edge). -/
def xpad (xs : (⟨4, ![4, 32, 56, 56]⟩ : Shape).Idx → EReal) (b c y x : ℕ) : EReal :=
  if 1 ≤ y ∧ 1 ≤ x then at4 xs b c (y - 1) (x - 1) else 0

/-- The mean absolute weight as both programs compute it: the sum of |w| from zero, divided by the count 18432. -/
def mu (ws : (⟨4, ![64, 32, 3, 3]⟩ : Shape).Idx → EReal) : EReal :=
  Ideal.div (Ideal.ofBits .f32 0x00000000#32 + ∑ j, max (ws j) (-(ws j))) (Ideal.ofBits .f32 0x46900000#32)

/-- (G): scale after the sum, patch positions channel-major. -/
def G (xs : (⟨4, ![4, 32, 56, 56]⟩ : Shape).Idx → EReal) (ws : (⟨4, ![64, 32, 3, 3]⟩ : Shape).Idx → EReal) :
    (⟨4, ![4, 64, 56, 56]⟩ : Shape).Idx → EReal := fun i =>
  mu ws * ∑ k : Fin 288, min (xpad xs (i 0) (k / 9) (k % 9 / 3 + i 2) (k % 9 % 3 + i 3)) (at4 ws (i 1) (k / 9) (k % 9 / 3) (k % 9 % 3))

/-- (K): both operands scaled first, taps outermost, channels in eight groups of four. -/
def K (xs : (⟨4, ![4, 32, 56, 56]⟩ : Shape).Idx → EReal) (ws : (⟨4, ![64, 32, 3, 3]⟩ : Shape).Idx → EReal) :
    (⟨4, ![4, 64, 56, 56]⟩ : Shape).Idx → EReal := fun i =>
  ∑ t : Fin 9, ∑ g : Fin 8, ∑ e : Fin 4,
    min (at4 ws (i 1) (4 * g + e) (t / 3) (t % 3) * mu ws) (xpad xs (i 0) (4 * g + e) (t / 3 + i 2) (t % 3 + i 3) * mu ws)

end MinPlusConv

end
-- ==== Proof.Algebra.lean ====
/-
  The two arrangements of the min-plus sum agree when the mean absolute weight is a non-negative real.
-/
import proofs.«123236_j66030827209197_1_alg».proof.Proof.Spec
import Mathlib.Data.EReal.Inv
import Mathlib.Data.EReal.Operations
import Mathlib.Data.Fintype.BigOperators
import Mathlib.Logic.Equiv.Fin.Basic

noncomputable section

open Idealize.ShloMosaic Idealize.ShloMosaic.ValueIdx
open scoped BigOperators

namespace MinPlusConv

/-- Multiplication by a non-negative real is monotone on the extended reals, so it commutes with min.
    The two sides list the operands of the minimum in opposite orders. -/
theorem min_mul_real (r : ℝ) (hr : 0 ≤ r) (a b : EReal) :
    min (a * (r : EReal)) (b * (r : EReal)) = (r : EReal) * min b a := by
  have h0 : (0 : EReal) ≤ (r : EReal) := EReal.coe_nonneg.mpr hr
  rw [mul_comm a, mul_comm b, min_comm b a]
  exact ((monotone_mul_left_of_nonneg h0).map_min).symm

/-- A non-negative real distributes over every finite sum of extended reals; no summand need be finite. -/
theorem real_mul_sum {ι : Type*} (s : Finset ι) (r : ℝ) (hr : 0 ≤ r) (f : ι → EReal) :
    (r : EReal) * ∑ i ∈ s, f i = ∑ i ∈ s, (r : EReal) * f i := by
  classical
  have h0 : (0 : EReal) ≤ (r : EReal) := EReal.coe_nonneg.mpr hr
  induction s using Finset.induction_on with
  | empty => simp
  | insert a s ha ih =>
    rw [Finset.sum_insert ha, Finset.sum_insert ha,
      EReal.left_distrib_of_nonneg_of_ne_top h0 (EReal.coe_ne_top r), ih]

/-- The 288 patch positions, channel-major (k = 9c + t), against taps outermost and channels split as c = 4g + e. -/
theorem sum_reindex {M : Type*} [AddCommMonoid M] (f : ℕ → ℕ → ℕ → M) :
    ∑ k : Fin 288, f (k / 9) (k % 9 / 3) (k % 9 % 3)
      = ∑ t : Fin 9, ∑ g : Fin 8, ∑ e : Fin 4, f (4 * g + e) (t / 3) (t % 3) := by
  -- k = t + 9 c with c < 32, t < 9
  have h1 : ∑ k : Fin 288, f (k / 9) (k % 9 / 3) (k % 9 % 3)
      = ∑ p : Fin 32 × Fin 9, f p.1 (p.2 / 3) (p.2 % 3) := by
    symm
    refine Fintype.sum_equiv (finProdFinEquiv : Fin 32 × Fin 9 ≃ Fin (32 * 9)) _ _ ?_
    rintro ⟨c, t⟩
    have hv : ((finProdFinEquiv (c, t) : Fin (32 * 9)) : ℕ) = t + 9 * c := rfl
    have ht := t.isLt
    have e1 : ((t : ℕ) + 9 * c) / 9 = c := by omega
    have e2 : ((t : ℕ) + 9 * c) % 9 = t := by omega
    simp only [hv, e1, e2]
  -- c = e + 4 g with g < 8, e < 4
  have h2 : ∀ t : Fin 9, ∑ c : Fin 32, f c (t / 3) (t % 3)
      = ∑ g : Fin 8, ∑ e : Fin 4, f (4 * g + e) (t / 3) (t % 3) := by
    intro t
    rw [← Fintype.sum_prod_type']
    symm
    refine Fintype.sum_equiv (finProdFinEquiv : Fin 8 × Fin 4 ≃ Fin (8 * 4)) _ _ ?_
    rintro ⟨g, e⟩
    have hv : ((finProdFinEquiv (g, e) : Fin (8 * 4)) : ℕ) = e + 4 * g := rfl
    simp only [hv, Nat.add_comm]
  rw [h1, Fintype.sum_prod_type_right]
  exact Finset.sum_congr rfl fun t _ => h2 t

/-- (K) = (G) when μ is a non-negative real: μ commutes with min (monotone) and distributes over the sums. -/
theorem K_eq_G (xs : (⟨4, ![4, 32, 56, 56]⟩ : Shape).Idx → EReal) (ws : (⟨4, ![64, 32, 3, 3]⟩ : Shape).Idx → EReal)
    (hμ : ∃ r : ℝ, 0 ≤ r ∧ mu ws = (r : EReal)) : K xs ws = G xs ws := by
  obtain ⟨r, hr, hmu⟩ := hμ
  funext i
  unfold K G
  rw [hmu]
  simp only [min_mul_real r hr]
  simp only [← real_mul_sum _ r hr]
  congr 1
  exact (sum_reindex (fun c a b =>
    min (xpad xs (i 0) c (a + i 2) (b + i 3)) (at4 ws (i 1) c a b))).symm

end MinPlusConv

end
-- ==== Proof.RefValue.lean ====
/-
  The reference program's result, read index by index, is the specification (G).

  The scalar factor is the mean absolute weight as (G) spells it. Under the sum over the 288 patch
  positions, the image operand at position k = 9 c + t and pixel 56 h + v is, through two reshapes,
  the concatenation of the nine shifted windows and the zero padding, the padded image at
  (b, c, t / 3 + h, t % 3 + v); the weight operand at position k is w[o, c, t / 3, t % 3].
-/
import proofs.«123236_j66030827209197_1_alg».proof.Proof.Gen.ReferenceIdeal.Read
import proofs.«123236_j66030827209197_1_alg».proof.Proof.Spec
import Idealize.ShloMosaic.Lib.KernelVsHost
import Idealize.ShloMosaic.Lib.Pipeline.Value
import Idealize.ShloMosaic.Lib.ValueIdx

noncomputable section

open Idealize.ShloMosaic Idealize.ShloMosaic.ValueIdx
open scoped BigOperators

namespace Cert.ReferenceIdeal.RefValue

open Cert.ReferenceIdeal Cert.ReferenceIdeal.Gen Cert.ReferenceIdeal.Read

/-- The padding value: the integer zero converted is the extended real zero. -/
theorem padval_eq (i : S_.Idx) : val_main_call0_v0 (F := Ideal) i = 0 := by
  show ((((0#32 : BitVec 32).toInt : ℤ) : ℝ) : EReal) = 0
  simp

/-- The padded image at an index of the padded frame is `xpad` at its coordinates. -/
theorem v3_eq (xs : (⟨S4x32x56x56, .f32⟩ : BufTy).Contents (Elt Ideal)) (b : Fin 4) (c : Fin 32) (y x : Fin 58) :
    val_main_v3 (F := Ideal) xs (ix4 b c y x) = MinPlusConv.xpad xs b c y x := by
  have hb := b.isLt
  have hc := c.isLt
  have hy := y.isLt
  have hx := x.isLt
  unfold val_main_v3 MinPlusConv.xpad
  by_cases hin : (1 ≤ y.val ∧ y.val ≤ 56) ∧ (1 ≤ x.val ∧ x.val ≤ 56)
  · rw [if_pos ⟨hin.1.1, hin.2.1⟩, MinPlusConv.at4_of_lt xs hb hc (show y.val - 1 < 56 by omega) (show x.val - 1 < 56 by omega)]
    refine pad_apply_of_inside _ _ _ xs _ _ h_S_ _ _ (fun a => ?_)
    match a with
    | ⟨0, _⟩ => show b.val = 0 + b.val * (0 + 1); omega
    | ⟨1, _⟩ => show c.val = 0 + c.val * (0 + 1); omega
    | ⟨2, _⟩ => show y.val = 1 + (y.val - 1) * (0 + 1); omega
    | ⟨3, _⟩ => show x.val = 1 + (x.val - 1) * (0 + 1); omega
  · have hR : (if 1 ≤ y.val ∧ 1 ≤ x.val then MinPlusConv.at4 xs b c (y.val - 1) (x.val - 1) else 0) = 0 := by
      split
      · unfold MinPlusConv.at4; rw [dif_neg (by omega)]
      · rfl
    rw [hR]
    by_cases hy' : 1 ≤ y.val ∧ y.val ≤ 56
    · refine (pad_apply_of_not_inside _ _ _ xs _ _ h_S_ _ (3 : Fin 4) ?_).trans (padval_eq _)
      show ¬(1 ≤ x.val ∧ (x.val - 1) % (0 + 1) = 0 ∧ (x.val - 1) / (0 + 1) < 56)
      omega
    · refine (pad_apply_of_not_inside _ _ _ xs _ _ h_S_ _ (2 : Fin 4) ?_).trans (padval_eq _)
      show ¬(1 ≤ y.val ∧ (y.val - 1) % (0 + 1) = 0 ∧ (y.val - 1) / (0 + 1) < 56)
      omega

/-- The same at any index of the padded frame. -/
theorem v3_eq' (xs : (⟨S4x32x56x56, .f32⟩ : BufTy).Contents (Elt Ideal)) (j : S4x32x58x58.Idx) :
    val_main_v3 (F := Ideal) xs j = MinPlusConv.xpad xs (j 0).val (j 1).val (j 2).val (j 3).val := by
  obtain ⟨b, c, y, x, rfl⟩ : ∃ b c y x, j = ix4 b c y x := ⟨j 0, j 1, j 2, j 3, eq_ix4 j⟩
  exact v3_eq xs b c y x

/-- `xpad` at equal coordinates. -/
theorem xpad_congr (xs : (⟨S4x32x56x56, .f32⟩ : BufTy).Contents (Elt Ideal)) {b b' c c' y y' x x' : ℕ}
    (hb : b = b') (hc : c = c') (hy : y = y') (hx : x = x') :
    MinPlusConv.xpad xs b c y x = MinPlusConv.xpad xs b' c' y' x' := by
  rw [hb, hc, hy, hx]

/-- Off the joined axis, the index of a piece and the index of the whole have the same coordinates. -/
theorem hi5 (b : Fin 4) (c : Fin 32) (t : Fin 9) (h v : Fin 56) (a : Fin S4x32x1x56x56.rank)
    (ha : a.cast (rfl : S4x32x1x56x56.rank = S4x32x9x56x56.rank) ≠ (2 : Fin S4x32x9x56x56.rank)) :
    ((ix5 b c (0 : Fin 1) h v : S4x32x1x56x56.Idx) a).val
      = ((ix5 b c t h v : S4x32x9x56x56.Idx) (a.cast (rfl : S4x32x1x56x56.rank = S4x32x9x56x56.rank))).val := by
  match a with
  | ⟨0, _⟩ => rfl
  | ⟨1, _⟩ => rfl
  | ⟨2, _⟩ => exact absurd rfl ha
  | ⟨3, _⟩ => rfl
  | ⟨4, _⟩ => rfl

/-- The nine shifted windows laid along the tap axis: at tap `t` the padded image shifted by `(t / 3, t % 3)`. -/
theorem v22_eq (xs : (⟨S4x32x56x56, .f32⟩ : BufTy).Contents (Elt Ideal)) (b : Fin 4) (c : Fin 32) (t : Fin 9) (h v : Fin 56) :
    val_main_v22 (F := Ideal) xs (ix5 b c t h v) = MinPlusConv.xpad xs b c (t.val / 3 + h.val) (t.val % 3 + v.val) := by
  unfold val_main_v22
  match t with
  | ⟨0, _⟩ =>
    refine Eq.trans (concatenate_apply_piece (t := S4x32x9x56x56) (2 : Fin 5) _ _ _ 0 (by show (0 : ℕ) < 9; decide) S4x32x1x56x56 (val_main_v13 (F := Ideal) xs) rfl rfl 0 rfl
      (ix5 b c 0 h v) (hi5 b c _ h v) rfl) ?_
    rw [val_main_v13_apply, val_main_v4_apply, v3_eq']
    exact xpad_congr xs rfl rfl (by show h.val = 0 / 3 + h.val; omega) (by show v.val = 0 % 3 + v.val; omega)
  | ⟨1, _⟩ =>
    refine Eq.trans (concatenate_apply_piece (t := S4x32x9x56x56) (2 : Fin 5) _ _ _ 1 (by show (1 : ℕ) < 9; decide) S4x32x1x56x56 (val_main_v14 (F := Ideal) xs) rfl rfl 1 rfl
      (ix5 b c 0 h v) (hi5 b c _ h v) rfl) ?_
    rw [val_main_v14_apply, val_main_v5_apply, v3_eq']
    exact xpad_congr xs rfl rfl (by show h.val = 1 / 3 + h.val; omega) (by show 1 + v.val = 1 % 3 + v.val; omega)
  | ⟨2, _⟩ =>
    refine Eq.trans (concatenate_apply_piece (t := S4x32x9x56x56) (2 : Fin 5) _ _ _ 2 (by show (2 : ℕ) < 9; decide) S4x32x1x56x56 (val_main_v15 (F := Ideal) xs) rfl rfl 2 rfl
      (ix5 b c 0 h v) (hi5 b c _ h v) rfl) ?_
    rw [val_main_v15_apply, val_main_v6_apply, v3_eq']
    exact xpad_congr xs rfl rfl (by show h.val = 2 / 3 + h.val; omega) (by show 2 + v.val = 2 % 3 + v.val; omega)
  | ⟨3, _⟩ =>
    refine Eq.trans (concatenate_apply_piece (t := S4x32x9x56x56) (2 : Fin 5) _ _ _ 3 (by show (3 : ℕ) < 9; decide) S4x32x1x56x56 (val_main_v16 (F := Ideal) xs) rfl rfl 3 rfl
      (ix5 b c 0 h v) (hi5 b c _ h v) rfl) ?_
    rw [val_main_v16_apply, val_main_v7_apply, v3_eq']
    exact xpad_congr xs rfl rfl (by show 1 + h.val = 3 / 3 + h.val; omega) (by show v.val = 3 % 3 + v.val; omega)
  | ⟨4, _⟩ =>
    refine Eq.trans (concatenate_apply_piece (t := S4x32x9x56x56) (2 : Fin 5) _ _ _ 4 (by show (4 : ℕ) < 9; decide) S4x32x1x56x56 (val_main_v17 (F := Ideal) xs) rfl rfl 4 rfl
      (ix5 b c 0 h v) (hi5 b c _ h v) rfl) ?_
    rw [val_main_v17_apply, val_main_v8_apply, v3_eq']
    exact xpad_congr xs rfl rfl (by show 1 + h.val = 4 / 3 + h.val; omega) (by show 1 + v.val = 4 % 3 + v.val; omega)
  | ⟨5, _⟩ =>
    refine Eq.trans (concatenate_apply_piece (t := S4x32x9x56x56) (2 : Fin 5) _ _ _ 5 (by show (5 : ℕ) < 9; decide) S4x32x1x56x56 (val_main_v18 (F := Ideal) xs) rfl rfl 5 rfl
      (ix5 b c 0 h v) (hi5 b c _ h v) rfl) ?_
    rw [val_main_v18_apply, val_main_v9_apply, v3_eq']
    exact xpad_congr xs rfl rfl (by show 1 + h.val = 5 / 3 + h.val; omega) (by show 2 + v.val = 5 % 3 + v.val; omega)
  | ⟨6, _⟩ =>
    refine Eq.trans (concatenate_apply_piece (t := S4x32x9x56x56) (2 : Fin 5) _ _ _ 6 (by show (6 : ℕ) < 9; decide) S4x32x1x56x56 (val_main_v19 (F := Ideal) xs) rfl rfl 6 rfl
      (ix5 b c 0 h v) (hi5 b c _ h v) rfl) ?_
    rw [val_main_v19_apply, val_main_v10_apply, v3_eq']
    exact xpad_congr xs rfl rfl (by show 2 + h.val = 6 / 3 + h.val; omega) (by show v.val = 6 % 3 + v.val; omega)
  | ⟨7, _⟩ =>
    refine Eq.trans (concatenate_apply_piece (t := S4x32x9x56x56) (2 : Fin 5) _ _ _ 7 (by show (7 : ℕ) < 9; decide) S4x32x1x56x56 (val_main_v20 (F := Ideal) xs) rfl rfl 7 rfl
      (ix5 b c 0 h v) (hi5 b c _ h v) rfl) ?_
    rw [val_main_v20_apply, val_main_v11_apply, v3_eq']
    exact xpad_congr xs rfl rfl (by show 2 + h.val = 7 / 3 + h.val; omega) (by show 1 + v.val = 7 % 3 + v.val; omega)
  | ⟨8, _⟩ =>
    refine Eq.trans (concatenate_apply_piece (t := S4x32x9x56x56) (2 : Fin 5) _ _ _ 8 (by show (8 : ℕ) < 9; decide) S4x32x1x56x56 (val_main_v21 (F := Ideal) xs) rfl rfl 8 rfl
      (ix5 b c 0 h v) (hi5 b c _ h v) rfl) ?_
    rw [val_main_v21_apply, val_main_v12_apply, v3_eq']
    exact xpad_congr xs rfl rfl (by show 2 + h.val = 8 / 3 + h.val; omega) (by show 2 + v.val = 8 % 3 + v.val; omega)

/-- The windows reshaped: position `k = 9 c + t` on the patch axis, pixel `p = 56 h + v`. -/
theorem v23_eq (xs : (⟨S4x32x56x56, .f32⟩ : BufTy).Contents (Elt Ideal)) (j : S4x288x3136.Idx) :
    val_main_v23 (F := Ideal) xs j
      = MinPlusConv.xpad xs (j 0).val ((j 1).val / 9) ((j 1).val % 9 / 3 + (j 2).val / 56) ((j 1).val % 9 % 3 + (j 2).val % 56) := by
  have h0 : (j 0).val < 4 := (j 0).isLt
  have h1 : (j 1).val < 288 := (j 1).isLt
  have h2 : (j 2).val < 3136 := (j 2).isLt
  rw [val_main_v23_apply]
  have e : idx_main_v23 j = ix5 (j 0) (⟨(j 1).val / 9, by omega⟩ : Fin 32) (⟨(j 1).val % 9, by omega⟩ : Fin 9)
      (⟨(j 2).val / 56, by omega⟩ : Fin 56) (⟨(j 2).val % 56, by omega⟩ : Fin 56) := by
    funext a
    match a with
    | ⟨0, _⟩ => exact Fin.ext (by show (((j 0).val * 288 + (j 1).val) * 3136 + (j 2).val) / 903168 = (j 0).val; omega)
    | ⟨1, _⟩ => exact Fin.ext (by show (((j 0).val * 288 + (j 1).val) * 3136 + (j 2).val) / 28224 % 32 = (j 1).val / 9; omega)
    | ⟨2, _⟩ => exact Fin.ext (by show (((j 0).val * 288 + (j 1).val) * 3136 + (j 2).val) / 3136 % 9 = (j 1).val % 9; omega)
    | ⟨3, _⟩ => exact Fin.ext (by show (((j 0).val * 288 + (j 1).val) * 3136 + (j 2).val) / 56 % 56 = (j 2).val / 56; omega)
    | ⟨4, _⟩ => exact Fin.ext (by show (((j 0).val * 288 + (j 1).val) * 3136 + (j 2).val) % 56 = (j 2).val % 56; omega)
  rw [e]
  exact v22_eq xs _ _ _ _ _

/-- The weights reshaped: position `k = 9 c + 3 i + j` on the patch axis. -/
theorem v24_eq (ws : (⟨S64x32x3x3, .f32⟩ : BufTy).Contents (Elt Ideal)) (j : S64x288.Idx) :
    val_main_v24 (F := Ideal) ws j = MinPlusConv.at4 ws (j 0).val ((j 1).val / 9) ((j 1).val % 9 / 3) ((j 1).val % 9 % 3) := by
  have h0 : (j 0).val < 64 := (j 0).isLt
  have h1 : (j 1).val < 288 := (j 1).isLt
  rw [val_main_v24_apply, MinPlusConv.at4_of_lt ws h0 (show (j 1).val / 9 < 32 by omega) (show (j 1).val % 9 / 3 < 3 by omega)
    (show (j 1).val % 9 % 3 < 3 by omega)]
  refine congrArg ws (funext fun a => ?_)
  match a with
  | ⟨0, _⟩ => exact Fin.ext (by show ((j 0).val * 288 + (j 1).val) / 288 = (j 0).val; omega)
  | ⟨1, _⟩ => exact Fin.ext (by show ((j 0).val * 288 + (j 1).val) / 9 % 32 = (j 1).val / 9; omega)
  | ⟨2, _⟩ => exact Fin.ext (by show ((j 0).val * 288 + (j 1).val) / 3 % 3 = (j 1).val % 9 / 3; omega)
  | ⟨3, _⟩ => exact Fin.ext (by show ((j 0).val * 288 + (j 1).val) % 3 = (j 1).val % 9 % 3; omega)

/-- The scalar the reference divides out is the mean absolute weight. -/
theorem mu_eq (ws : (⟨S64x32x3x3, .f32⟩ : BufTy).Contents (Elt Ideal)) (i : S_.Idx) :
    val_main_v2 (F := Ideal) ws i = MinPlusConv.mu ws := by
  rw [val_main_v2_apply, val_main_v1_apply]
  rfl

/-- The reference's last stage is (G) of the two arguments. -/
theorem ref_eq_G (xs : (⟨S4x32x56x56, .f32⟩ : BufTy).Contents (Elt Ideal)) (ws : (⟨S64x32x3x3, .f32⟩ : BufTy).Contents (Elt Ideal)) :
    (val_main_v33 (F := Ideal) xs ws : S4x64x56x56.Idx → EReal) = MinPlusConv.G xs ws := by
  funext i
  have h0 : (i 0).val < 4 := (i 0).isLt
  have h1 : (i 1).val < 64 := (i 1).isLt
  have h2 : (i 2).val < 56 := (i 2).isLt
  have h3 : (i 3).val < 56 := (i 3).isLt
  -- the flat pixel index of (h, v) is 56 h + v
  have e33 : idx_main_v33 i
      = (ix3 (⟨(i 0).val, h0⟩ : Fin 4) (⟨(i 1).val, h1⟩ : Fin 64) (⟨(i 2).val * 56 + (i 3).val, by omega⟩ : Fin 3136) : S4x64x3136.Idx) := by
    funext a
    match a with
    | ⟨0, _⟩ => exact Fin.ext (by show ((((i 0).val * 64 + (i 1).val) * 56 + (i 2).val) * 56 + (i 3).val) / 200704 = (i 0).val; omega)
    | ⟨1, _⟩ => exact Fin.ext (by show ((((i 0).val * 64 + (i 1).val) * 56 + (i 2).val) * 56 + (i 3).val) / 3136 % 64 = (i 1).val; omega)
    | ⟨2, _⟩ => exact Fin.ext (by show ((((i 0).val * 64 + (i 1).val) * 56 + (i 2).val) * 56 + (i 3).val) % 3136 = (i 2).val * 56 + (i 3).val; omega)
  rw [val_main_v33_apply, e33, val_main_v32_apply, val_main_v31_apply, mu_eq, val_main_v30_apply]
  unfold MinPlusConv.G
  show MinPlusConv.mu ws * (Ideal.ofBits .f32 0x00000000#32 + ∑ k : Fin 288, _) = MinPlusConv.mu ws * ∑ k : Fin 288, _
  rw [Ideal.ofBits_zero_f32, zero_add]
  refine congrArg (MinPlusConv.mu ws * ·) (Finset.sum_congr rfl fun k _ => ?_)
  rw [val_main_v29_apply, val_main_v27_apply, val_main_v25_apply, v23_eq, val_main_v28_apply, val_main_v26_apply, v24_eq]
  show min (MinPlusConv.xpad xs (i 0).val (k.val / 9) (k.val % 9 / 3 + ((i 2).val * 56 + (i 3).val) / 56)
        (k.val % 9 % 3 + ((i 2).val * 56 + (i 3).val) % 56))
      (MinPlusConv.at4 ws (i 1).val (k.val / 9) (k.val % 9 / 3) (k.val % 9 % 3)) = _
  rw [show ((i 2).val * 56 + (i 3).val) / 56 = (i 2).val by omega, show ((i 2).val * 56 + (i 3).val) % 56 = (i 3).val by omega]

end Cert.ReferenceIdeal.RefValue

end
-- ==== Proof.MuReal.lean ====
/-
  Under the precondition (every input entry finite) the mean absolute weight is a non-negative real.
-/
import proofs.«123236_j66030827209197_1_alg».proof.Defs
import proofs.«123236_j66030827209197_1_alg».proof.Proof.Gen.Pre_finite_inputs
import proofs.«123236_j66030827209197_1_alg».proof.Proof.Spec
import Idealize.ShloMosaic.Lib.ReduceAll

noncomputable section

open Idealize.ShloMosaic Idealize.ShloMosaic.ValueIdx Idealize.SL.Sem
open scoped BigOperators

namespace Cert.KernelIdeal.MuReal

/-- The shape of a scalar has one index. -/
local instance : Subsingleton Cert.Pre_finite_inputs.S_.Idx := ⟨fun a b => funext fun d => d.elim0⟩

/-- A one-bit word made from a Boolean is 1 exactly when the Boolean is true. -/
theorem ofBool_eq_one_iff {b : Bool} : BitVec.ofBool b = 1#1 ↔ b = true := by cases b <;> decide

/-- The word the predicate compares against denotes +∞. -/
theorem ofBits_inf : Ideal.ofBits .f32 0x7F800000#32 = (⊤ : EReal) := by
  simp [Ideal.ofBits, Ideal.ieee]

/-- The divisor of the mean denotes the real 18432 = 64 · 32 · 3 · 3. -/
theorem ofBits_18432 : Ideal.ofBits .f32 0x46900000#32 = ((18432 : ℝ) : EReal) := by
  simp [Ideal.ofBits, Ideal.ieee, -EReal.coe_mul]; norm_num

/-- The predicate holding, every weight has absolute value below +∞. -/
theorem weights_lt_top [hPre : Cert.Pre_finite_inputs.Facts]
    (xs : FVec Ideal Cert.Pre_finite_inputs.S4x32x56x56 .f32) (ws : FVec Ideal Cert.Pre_finite_inputs.S64x32x3x3 .f32)
    (h : Cert.Pre_finite_inputs.fn (F := Ideal) xs ws = fun _ => 1#1) (j : Cert.Pre_finite_inputs.S64x32x3x3.Idx) :
    max (ws j) (-(ws j)) < (⊤ : EReal) := by
  have h0 := congrFun h ValueIdx.ix0
  dsimp only [Cert.Pre_finite_inputs.fn] at h0
  -- the conjunction's second half is the statement about the weights
  obtain ⟨-, hw⟩ := IntOp.andi_eq_one.1 h0
  -- a reduction by "and" over every axis that is 1 had a 1 at every index
  have hj := Host.reduce_andi_all _ _ _ _ _ hw j
  -- at an index the compared pair is |w j| and the constant
  have hj' : Ideal.cmp .olt (max (ws j) (-(ws j))) (Ideal.ofBits .f32 0x7F800000#32) = 1#1 := hj
  rw [ofBits_inf] at hj'
  simpa [Ideal.cmp, ofBool_eq_one_iff] using hj'

/-- An extended real whose absolute value is below +∞ is a real. -/
theorem weights_real [hPre : Cert.Pre_finite_inputs.Facts]
    (xs : FVec Ideal Cert.Pre_finite_inputs.S4x32x56x56 .f32) (ws : FVec Ideal Cert.Pre_finite_inputs.S64x32x3x3 .f32)
    (h : Cert.Pre_finite_inputs.fn (F := Ideal) xs ws = fun _ => 1#1) (j : Cert.Pre_finite_inputs.S64x32x3x3.Idx) :
    ∃ r : ℝ, ws j = (r : EReal) := by
  have hlt := weights_lt_top xs ws h j
  induction hx : ws j using EReal.rec with
  | bot => rw [hx] at hlt; simp at hlt
  | top => rw [hx] at hlt; simp at hlt
  | coe r => exact ⟨r, rfl⟩

/-- A finite sum of reals, taken in the extended reals, is the real sum. -/
theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- On a real, max r (-r) taken in the extended reals is the real |r|. -/
theorem max_neg_coe (r : ℝ) : max (r : EReal) (-(r : EReal)) = ((|r| : ℝ) : EReal) := by
  rw [← EReal.coe_neg, ← EReal.coe_strictMono.monotone.map_max, abs_eq_max_neg]

/-- Weights that are reals f j have mean absolute value (Σ |f j|) · (1 / 18432). -/
theorem mu_of_real (ws : (⟨4, ![64, 32, 3, 3]⟩ : Shape).Idx → EReal) (f : (⟨4, ![64, 32, 3, 3]⟩ : Shape).Idx → ℝ)
    (hf : ∀ j, ws j = (f j : EReal)) :
    MinPlusConv.mu ws = (((∑ j, |f j|) * (1 / 18432) : ℝ) : EReal) := by
  unfold MinPlusConv.mu
  rw [Ideal.ofBits_zero_f32, ofBits_18432, Ideal.div_coe (by norm_num), zero_add]
  have habs : ∀ j, max (ws j) (-(ws j)) = ((|f j| : ℝ) : EReal) := fun j => by rw [hf j, max_neg_coe]
  simp_rw [habs]
  rw [coe_sum, ← EReal.coe_mul]

/-- Finite weights have a real, non-negative mean absolute value. -/
theorem mu_real [hKernelIdeal : Cert.KernelIdeal.Facts] [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ r : ℝ, 0 ≤ r ∧ MinPlusConv.mu (m ((c.tc : Thread Cert.KernelIdeal.nD Cert.KernelIdeal.τ).loc Cert.KernelIdeal.main_arg1)) = (r : EReal) := by
  -- every weight is a real: choose them as a function
  choose f hf using weights_real _ _ (hpre c)
  -- the mean is (Σ |f j|) · (1 / 18432), a product of non-negative reals
  exact ⟨(∑ j, |f j|) * (1 / 18432), mul_nonneg (Finset.sum_nonneg fun j _ => abs_nonneg _) (by norm_num),
    mu_of_real _ f hf⟩

end Cert.KernelIdeal.MuReal

end
-- ==== Proof.KernelBody.lean ====
/-
  What the kernel's body leaves in its output block.

  The body zeroes a [64, 56, 56] accumulator, then in 72 rounds — the nine taps outermost, the 32 channels in eight groups of four —
  adds to it the sum over a group's four channels of min(weight, shifted image), and at last copies the accumulator to the
  output block. Read at an entry (o, h, v) this is the triple sum over taps, groups and channels: every load of the
  accumulator reads back the store before it, each round is one generic statement in its slices' offsets, and the chain of 72 additions
  from zero is the double sum taken in program order.
-/
import proofs.«123236_j66030827209197_1_alg».proof.Proof.Gen.KernelIdeal.Frame
import proofs.«123236_j66030827209197_1_alg».proof.Proof.Spec
import Idealize.ShloMosaic.Lib.Pipeline.Value
import Idealize.ShloMosaic.Lib.Pipeline.FrameBody
import Idealize.ShloMosaic.Lib.Tactic
import Idealize.ShloMosaic.Lib.ValueIdx
import Idealize.ShloMosaic.PureOps.Ideal.Laws
import Mathlib.Logic.Equiv.Fin.Basic
import Mathlib.Algebra.BigOperators.Fin

noncomputable section
open Idealize.ShloMosaic Idealize.ShloMosaic.TcCoe Idealize.ShloMosaic.ValueIdx Idealize.SL.Sem
open scoped BigOperators

namespace Cert.KernelIdeal.Body
open Cert.KernelIdeal Cert.KernelIdeal.Gen MinPlusConv

/-- A load through the whole-shape rectangle of what the LAST of several stores through it left reads that store's
    payload, whatever the earlier stores were. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

end Cert.KernelIdeal.Body

namespace Cert.KernelIdeal.Body
open Cert.KernelIdeal MinPlusConv

/-! ## One accumulation round, read at an index

Every round of the body takes four channels of one shifted view of the image block and the same four channels of
one tap of the weight block, broadcasts both to [64, 4, 56, 56], takes the minimum, sums the four channels away and adds the
result to the accumulator. The lemmas are generic in the slices' offsets, so ONE statement serves all 72 rounds. -/

/-- The weight operand of a round at (o, e, h, v): the weight block at output channel o, the round's tap, the round's
    channel offset plus e. The slices keep axis 0 whole and the tap slice has one row, which pins the other offsets to 0. -/
theorem wside_apply (offB : Fin 3 → ℕ) (hB : S64x9x32.Slices offB S64x1x32) (hB' : S64x1x32.ShapeCasts S64x32)
    (offD : Fin 2 → ℕ) (hD : S64x32.Slices offD S64x4) (hE : S64x4.ShapeCasts S64x4x1x1)
    (hG : S64x4x1x1.Broadcasts S64x4x56x56) (w7 : S64x9x32.Idx → EReal) (o : Fin 64) (e : Fin 4) (h v : Fin 56) :
    broadcastTo S64x4x56x56 (shapeCast S64x4x1x1 (extractStridedSlice S64x4 offD (shapeCast S64x32 (extractStridedSlice S64x1x32 offB w7 hB) hB') hD) hE) hG
        (ix4 o e h v)
      = at3 w7 o (offB 1) (offD 1 + e) := by
  have ⟨_, hBa⟩ := hB
  have ⟨_, hDa⟩ := hD
  have b0 : offB 0 + 64 ≤ 64 := hBa 0
  have b1 : offB 1 + 1 ≤ 9 := hBa 1
  have b2 : offB 2 + 32 ≤ 32 := hBa 2
  have d0 : offD 0 + 64 ≤ 64 := hDa 0
  have d1 : offD 1 + 4 ≤ 32 := hDa 1
  have ho := o.isLt
  have he := e.isLt
  refine (broadcastTo_apply _ hG (ix4 o e h v) (ix4 o e (0 : Fin 1) (0 : Fin 1)) (fun a => by
    match a with | ⟨0, _⟩ => rfl | ⟨1, _⟩ => rfl | ⟨2, _⟩ => rfl | ⟨3, _⟩ => rfl)).trans ?_
  refine (shapeCast_apply _ hE (ix4 o e (0 : Fin 1) (0 : Fin 1)) (ix2 o e) (by
    rw [Shape.rowMajor_val_two, Shape.rowMajor_val_four]; show o.val * 4 + e.val = ((o.val * 4 + e.val) * 1 + 0) * 1 + 0; omega)).trans ?_
  refine (extractStridedSlice_apply offD _ hD (ix2 o e) (ix2 o (⟨offD 1 + e, by omega⟩ : Fin 32)) (fun a => by
    match a with
    | ⟨0, _⟩ => show o.val = offD 0 + o.val; omega
    | ⟨1, _⟩ => rfl)).trans ?_
  refine (shapeCast_apply _ hB' (ix2 o (⟨offD 1 + e, by omega⟩ : Fin 32)) (ix3 o (0 : Fin 1) (⟨offD 1 + e, by omega⟩ : Fin 32)) (by
    rw [Shape.rowMajor_val_three, Shape.rowMajor_val_two]; show (o.val * 1 + 0) * 32 + (offD 1 + e.val) = o.val * 32 + (offD 1 + e.val); omega)).trans ?_
  refine (extractStridedSlice_apply offB w7 hB (ix3 o (0 : Fin 1) (⟨offD 1 + e, by omega⟩ : Fin 32))
    (ix3 o (⟨offB 1, by omega⟩ : Fin 9) (⟨offD 1 + e, by omega⟩ : Fin 32)) (fun a => by
    match a with
    | ⟨0, _⟩ => show o.val = offB 0 + o.val; omega
    | ⟨1, _⟩ => show offB 1 = offB 1 + 0; omega
    | ⟨2, _⟩ => show offD 1 + e.val = offB 2 + (offD 1 + e.val); omega)).trans ?_
  exact (at3_of_lt w7 ho (by omega) (by omega)).symm

/-- The image operand of a round at (o, e, h, v): the image block at the round's channel offset plus e, shifted by the
    round's tap on the two image axes. -/
theorem xside_apply (offA : Fin 3 → ℕ) (hA : S32x58x58.Slices offA S32x56x56) (offC : Fin 3 → ℕ) (hC : S32x56x56.Slices offC S4x56x56)
    (hF : S4x56x56.ShapeCasts S1x4x56x56) (hH : S1x4x56x56.Broadcasts S64x4x56x56) (x5 : S32x58x58.Idx → EReal)
    (o : Fin 64) (e : Fin 4) (h v : Fin 56) :
    broadcastTo S64x4x56x56 (shapeCast S1x4x56x56 (extractStridedSlice S4x56x56 offC (extractStridedSlice S32x56x56 offA x5 hA) hC) hF) hH
        (ix4 o e h v)
      = at3 x5 (offA 0 + (offC 0 + e)) (offA 1 + (offC 1 + h)) (offA 2 + (offC 2 + v)) := by
  have ⟨_, hAa⟩ := hA
  have ⟨_, hCa⟩ := hC
  have a0 : offA 0 + 32 ≤ 32 := hAa 0
  have a1 : offA 1 + 56 ≤ 58 := hAa 1
  have a2 : offA 2 + 56 ≤ 58 := hAa 2
  have c0 : offC 0 + 4 ≤ 32 := hCa 0
  have c1 : offC 1 + 56 ≤ 56 := hCa 1
  have c2 : offC 2 + 56 ≤ 56 := hCa 2
  have he := e.isLt
  have hh := h.isLt
  have hv := v.isLt
  refine (broadcastTo_apply _ hH (ix4 o e h v) (ix4 (0 : Fin 1) e h v) (fun a => by
    match a with | ⟨0, _⟩ => rfl | ⟨1, _⟩ => rfl | ⟨2, _⟩ => rfl | ⟨3, _⟩ => rfl)).trans ?_
  refine (shapeCast_apply _ hF (ix4 (0 : Fin 1) e h v) (ix3 e h v) (by
    rw [Shape.rowMajor_val_three, Shape.rowMajor_val_four]
    show (e.val * 56 + h.val) * 56 + v.val = (((0 : ℕ) * 4 + e.val) * 56 + h.val) * 56 + v.val; omega)).trans ?_
  refine (extractStridedSlice_apply offC _ hC (ix3 e h v)
    (ix3 (⟨offC 0 + e, by omega⟩ : Fin 32) (⟨offC 1 + h, by omega⟩ : Fin 56) (⟨offC 2 + v, by omega⟩ : Fin 56)) (fun a => by
    match a with | ⟨0, _⟩ => rfl | ⟨1, _⟩ => rfl | ⟨2, _⟩ => rfl)).trans ?_
  refine (extractStridedSlice_apply offA x5 hA
    (ix3 (⟨offC 0 + e, by omega⟩ : Fin 32) (⟨offC 1 + h, by omega⟩ : Fin 56) (⟨offC 2 + v, by omega⟩ : Fin 56))
    (ix3 (⟨offA 0 + (offC 0 + e), by omega⟩ : Fin 32) (⟨offA 1 + (offC 1 + h), by omega⟩ : Fin 58) (⟨offA 2 + (offC 2 + v), by omega⟩ : Fin 58))
    (fun a => by match a with | ⟨0, _⟩ => rfl | ⟨1, _⟩ => rfl | ⟨2, _⟩ => rfl)).trans ?_
  exact (at3_of_lt x5 (by omega) (by omega) (by omega)).symm

/-- What one round adds at (o, h, v), as a function of the eight offsets its four slices carry: the four channels' minima of
    the weight block at tap `tt`, channels `gg + e`, and the image block at channels `a0 + (gg' + e)`, shifted by
    `a1 + c1` rows and `a2 + c2` columns. Kept as ONE named term so that the 72 rounds' chain is 72 small atoms. -/
def R (w7 : S64x9x32.Idx → EReal) (x5 : S32x58x58.Idx → EReal) (o : Fin 64) (h v : Fin 56) (tt gg a0 gg' a1 c1 a2 c2 : ℕ) : EReal :=
  ∑ e : Fin 4, min (at3 w7 o tt (gg + e)) (at3 x5 (a0 + (gg' + e)) (a1 + (c1 + h)) (a2 + (c2 + v)))

/-- A whole round at (o, h, v): the accumulator's entry plus the round's term at its slices' offsets. -/
theorem round_apply (offA : Fin 3 → ℕ) (hA : S32x58x58.Slices offA S32x56x56) (offB : Fin 3 → ℕ) (hB : S64x9x32.Slices offB S64x1x32)
    (hB' : S64x1x32.ShapeCasts S64x32) (offC : Fin 3 → ℕ) (hC : S32x56x56.Slices offC S4x56x56) (offD : Fin 2 → ℕ)
    (hD : S64x32.Slices offD S64x4) (hE : S64x4.ShapeCasts S64x4x1x1) (hF : S4x56x56.ShapeCasts S1x4x56x56)
    (hG : S64x4x1x1.Broadcasts S64x4x56x56) (hH : S1x4x56x56.Broadcasts S64x4x56x56) (hR : S64x4x56x56.Reduces [1] S64x56x56)
    (hφ : FKind.Formats .f32) (hacc : (0x00000000#32 : BitVec 32) = 0x00000000#32)
    (x5 : FVec Ideal S32x58x58 .f32) (w7 : FVec Ideal S64x9x32 .f32) (acc : FVec Ideal S64x56x56 .f32) (o : Fin 64) (h v : Fin 56) :
    addf acc (multiReduction .add [1] S64x56x56
        (minimumf
          (broadcastTo S64x4x56x56 (shapeCast S64x4x1x1 (extractStridedSlice S64x4 offD (shapeCast S64x32 (extractStridedSlice S64x1x32 offB w7 hB) hB') hD) hE) hG)
          (broadcastTo S64x4x56x56 (shapeCast S1x4x56x56 (extractStridedSlice S4x56x56 offC (extractStridedSlice S32x56x56 offA x5 hA) hC) hF) hH))
        0x00000000#32 hR hφ hacc) (ix3 o h v)
      = acc (ix3 o h v) + R w7 x5 o h v (offB 1) (offD 1) (offA 0) (offC 0) (offA 1) (offC 1) (offA 2) (offC 2) := by
  unfold R
  refine congrArg (acc (ix3 o h v) + ·) ?_
  refine (Ideal.multiReduction_add_single _ 0x00000000#32 hR hφ hacc (ix3 o h v)).trans ?_
  show ∑ e : Fin 4, _ = ∑ e : Fin 4, _
  refine Finset.sum_congr rfl fun e _ => ?_
  have hj : hR.lift (ix3 o h v) e = ix4 o e h v := by
    funext a; apply Fin.ext
    match a with | ⟨0, _⟩ => rfl | ⟨1, _⟩ => rfl | ⟨2, _⟩ => rfl | ⟨3, _⟩ => rfl
  rw [hj]
  exact congrArg₂ min (wside_apply offB hB hB' offD hD hE hG w7 o e h v) (xside_apply offA hA offC hC hF hH x5 o e h v)

end Cert.KernelIdeal.Body

namespace Cert.KernelIdeal.Body
open Cert.KernelIdeal Cert.KernelIdeal.Gen MinPlusConv

/-- The image block with its leading unit axis dropped, read at natural coordinates. -/
theorem at3_dropUnit (x0 : S1x32x58x58.Idx → EReal) (hh : S1x32x58x58.ShapeCasts S32x58x58) (a b c : ℕ) :
    at3 (shapeCast S32x58x58 x0 hh) a b c = at4 x0 0 a b c := by
  unfold at3 at4
  by_cases hb : a < 32 ∧ b < 58 ∧ c < 58
  · rw [dif_pos hb, dif_pos ⟨Nat.one_pos, hb.1, hb.2.1, hb.2.2⟩]
    exact shapeCast_apply x0 hh _ _ (by
      rw [Shape.rowMajor_val_four, Shape.rowMajor_val_three]
      show (((0 : ℕ) * 32 + a) * 58 + b) * 58 + c = (a * 58 + b) * 58 + c; omega)
  · rw [dif_neg hb, dif_neg (fun h => hb ⟨h.2.1, h.2.2.1, h.2.2.2⟩)]

/-- The round of tap t and channel group g, in the blocks' own terms. -/
theorem R_eq (x0 : S1x32x58x58.Idx → EReal) (hh : S1x32x58x58.ShapeCasts S32x58x58) (x1 : S64x9x32.Idx → EReal)
    (o : Fin 64) (h v : Fin 56) (t g : ℕ) :
    R x1 (shapeCast S32x58x58 x0 hh) o h v t (4 * g) 0 (4 * g) (t / 3) 0 (t % 3) 0
      = ∑ e : Fin 4, min (at3 x1 o t (4 * g + e)) (at4 x0 0 (4 * g + e) (t / 3 + h) (t % 3 + v)) := by
  unfold R
  refine Finset.sum_congr rfl fun e _ => ?_
  rw [at3_dropUnit, Nat.zero_add, Nat.zero_add, Nat.zero_add]

set_option maxHeartbeats 1000000 in
/-- WHAT THE BODY LEAVES in the output block, entry by entry: from a zeroed accumulator, the 72 rounds' sums in program order,
    which is the triple sum over taps, channel groups and channels of the minima of the weight block and the shifted image block. -/
theorem body_at (c : Dev nD) (i : grid0.Coords) (a1 : Memref sig .tc .vmem S1x32x58x58 .f32) (h1 : a1.IsWhole)
    (a2 : Memref sig .tc .vmem S64x9x32 .f32) (h2 : a2.IsWhole) (a3 : Memref sig .tc .vmem S1x64x56x56 .f32) (h3 : a3.IsWhole)
    (a4 : Memref sig .tc .vmem S64x56x56 .f32) (h4 : a4.IsWhole)
    (x0 : Vec Ideal S1x32x58x58 .f32) (x1 : Vec Ideal S64x9x32 .f32) (z : Fin 1) (o : Fin 64) (h v : Fin 56) :
    out0_A_2 (F := Ideal) c i a1 h1 a2 h2 a3 h3 a4 h4 x0 x1 (ix4 z o h v)
      = ∑ t : Fin 9, ∑ g : Fin 8, ∑ e : Fin 4, min (at3 x1 o t (4 * g + e)) (at4 x0 0 (4 * g + e) (t / 3 + h) (t % 3 + v)) := by
  -- the block is its one covering store's payload; every load of the accumulator reads the store before it
  unfold out0_A_2
  rw [View.read_writes_eq_canon _ _ _ (cover0_A_2 c i a1 h1 a2 h2 a3 h3 a4 h4 x0 x1)]
  unfold kernelRun0_A
  dsimp only
  sl_unfold_words
  rw [View.canon_unit_zero hz4]
  simp only [↓readCov_cons_whole (S := S64x56x56) _ hz3, View.readAt_eq_ld, h1.read_unread, h2.read_unread,
    View.ld_unit_zero (S := S1x32x58x58) hz4, View.ld_unit_zero (S := S64x9x32) hz3]
  -- the payloads, opened down to the vector operations
  simp only [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, shapeCast_self]
  generalize hx5 : k0_pay3 x0 = x5
  generalize hw7 : k0_pay4 x1 = w7
  have hz := z.isLt
  refine (shapeCast_apply _ _ (ix4 z o h v) (ix3 o h v) (by
    rw [Shape.rowMajor_val_three, Shape.rowMajor_val_four]
    show (o.val * 56 + h.val) * 56 + v.val = (((z.val * 64 + o.val) * 56 + h.val) * 56 + v.val); omega)).trans ?_
  -- the 72 rounds, last first
  iterate 72 rw [round_apply]
  have h0 : (broadcast S64x56x56 (Scalar.ofBits (F := Ideal) .f32 0x00000000#32) (ix3 o h v) : EReal) = 0 := Ideal.ofBits_zero_f32
  rw [h0]
  -- the other side, round by round
  have hx5' : x5 = shapeCast S32x58x58 x0 Facts₀.shapeCasts_S1x32x58x58_S32x58x58 := hx5.symm
  have hw7' : w7 = x1 := hw7.symm.trans (shapeCast_self x1 _)
  have key : (∑ t : Fin 9, ∑ g : Fin 8, R w7 x5 o h v t (4 * g) 0 (4 * g) (t / 3) 0 (t % 3) 0)
      = ∑ t : Fin 9, ∑ g : Fin 8, ∑ e : Fin 4, min (at3 x1 o t (4 * g + e)) (at4 x0 0 (4 * g + e) (t / 3 + h) (t % 3 + v)) := by
    rw [hx5', hw7']
    exact Finset.sum_congr rfl fun t _ => Finset.sum_congr rfl fun g _ => R_eq x0 _ x1 o h v t g
  rw [← key]
  -- both sides as the same 72 atoms in the same order
  simp only [Matrix.cons_val_zero, Matrix.cons_val_one, Matrix.cons_val_two, Matrix.head_cons, Matrix.tail_cons, Matrix.cons_val,
    Fin.sum_univ_succ, Fin.sum_univ_zero, Fin.val_succ, Fin.val_zero, add_zero, zero_add, add_assoc,
    Nat.reduceMul, Nat.reduceDiv, Nat.reduceMod, Nat.reduceAdd]

end Cert.KernelIdeal.Body

end
-- ==== Proof.KernelHost.lean ====
/-
  What the kernel's two staged arrays hold when the region is entered: the padded image and the
  re-laid weights, each scaled by the mean absolute weight.
-/
import proofs.«123236_j66030827209197_1_alg».proof.Proof.Gen.KernelIdeal.Frame
import proofs.«123236_j66030827209197_1_alg».proof.Proof.Spec
import Idealize.ShloMosaic.Lib.KernelVsHost
import Idealize.ShloMosaic.Lib.Pipeline.Value
import Idealize.ShloMosaic.Lib.StableHlo.Run
import Idealize.ShloMosaic.Lib.ValueIdx

noncomputable section

open Idealize.ShloMosaic Idealize.ShloMosaic.TcCoe Idealize.ShloMosaic.ValueIdx Idealize.SL.Sem
open scoped BigOperators

namespace Cert.KernelIdeal.HostValue

open Cert.KernelIdeal Cert.KernelIdeal.Gen

variable (m : (ℓ : Loc nD τ sig) → Buf (Elt Ideal) ℓ)

/-! ## The mean absolute weight as the host operations compute it -/

/-- The host's rank-0 array holding μ: the sum of |w| from a zero start, divided by the count. -/
abbrev muHost (ws : S64x32x3x3.Idx → EReal) (hr : S64x32x3x3.ReducesTo [0, 1, 2, 3] S_) (hu : 0 < S_.numel) : S_.Idx → EReal :=
  Host.divf (F := Ideal) (φ := .f32)
    (Host.reduceAdd (F := Ideal) (φ := .f32) (Host.absf (F := Ideal) (φ := .f32) ws) (constant (F := Ideal) S_ .f32 0x00000000#32) hr hu)
    (constant (F := Ideal) S_ .f32 0x46900000#32)

/-- Its one entry is μ: the reduction into the rank-0 shape is the total sum, |w| is max w (−w). -/
theorem muHost_apply (ws : S64x32x3x3.Idx → EReal) (hr : S64x32x3x3.ReducesTo [0, 1, 2, 3] S_) (hu : 0 < S_.numel) (j : S_.Idx) :
    muHost ws hr hu j = MinPlusConv.mu ws := by
  show Ideal.div (Ideal.hostReduceAdd hr _ _ j) _ = _
  rw [Ideal.hostReduceAdd_total hr (fun b => b.elim0)]
  rfl

/-- A rank-0 array broadcast to any shape holds its one entry everywhere. -/
theorem bcast_scalar_apply {t : Shape} (h : S_.BroadcastsInDim t (![] : Fin 0 → Fin t.rank)) (x : S_.Idx → EReal) (j : t.Idx) :
    broadcastInDim t ![] h x j = x ix0 :=
  broadcastInDim_apply _ h x j ix0 (fun a => a.elim0)

/-! ## The padded image -/

/-- The image padded by one ring of the value `v`'s entry, which is zero, read at padded coordinates. -/
theorem pad_at (xs : S4x32x56x56.Idx → EReal) (v : S_.Idx → EReal) (hv : ∀ j, v j = 0)
    (hp : S4x32x56x56.Pads (![0, 0, 1, 1] : Fin 4 → Nat) ![0, 0, 1, 1] ![0, 0, 0, 0] S4x32x58x58) (hu : 0 < S_.numel)
    (b : Fin 4) (ch : Fin 32) (y x : Fin 58) :
    pad S4x32x58x58 ![0, 0, 1, 1] ![0, 0, 1, 1] ![0, 0, 0, 0] xs v hp hu (ix4 b ch y x) = MinPlusConv.xpad xs b ch y x := by
  have hy := y.isLt
  have hx := x.isLt
  by_cases hin : (1 ≤ y.val ∧ y.val ≤ 56) ∧ (1 ≤ x.val ∧ x.val ≤ 56)
  · -- inside the image: the operand one row up and one column left
    obtain ⟨⟨hy1, hy2⟩, hx1, hx2⟩ := hin
    refine (pad_apply_of_inside _ _ _ xs v hp hu (ix4 b ch y x)
      (ix4 b ch (⟨y.val - 1, by omega⟩ : Fin 56) (⟨x.val - 1, by omega⟩ : Fin 56)) (fun a => ?_)).trans ?_
    · match a with
      | ⟨0, _⟩ => show b.val = 0 + b.val * (0 + 1); omega
      | ⟨1, _⟩ => show ch.val = 0 + ch.val * (0 + 1); omega
      | ⟨2, _⟩ => show y.val = 1 + (y.val - 1) * (0 + 1); omega
      | ⟨3, _⟩ => show x.val = 1 + (x.val - 1) * (0 + 1); omega
    · unfold MinPlusConv.xpad
      rw [if_pos ⟨hy1, hx1⟩, MinPlusConv.at4_of_lt xs b.isLt ch.isLt (by omega : y.val - 1 < 56) (by omega : x.val - 1 < 56)]
  · -- on the ring: the padding value on the left, zero by definition on the right
    have hr : MinPlusConv.xpad xs b ch y x = 0 := by
      unfold MinPlusConv.xpad
      by_cases h1 : 1 ≤ y.val ∧ 1 ≤ x.val
      · rw [if_pos h1]
        unfold MinPlusConv.at4
        rw [dif_neg (fun h => hin ⟨⟨h1.1, by have := h.2.2.1; omega⟩, h1.2, by have := h.2.2.2; omega⟩)]
      · rw [if_neg h1]
    rw [hr]
    by_cases hyy : 1 ≤ y.val ∧ y.val ≤ 56
    · have hxx : ¬(1 ≤ x.val ∧ x.val ≤ 56) := fun h => hin ⟨hyy, h⟩
      refine (pad_apply_of_not_inside _ _ _ xs v hp hu (ix4 b ch y x) (3 : Fin 4) (fun h => hxx ?_)).trans (hv _)
      have h1 : 1 ≤ x.val := h.1
      have h3 : (x.val - 1) / (0 + 1) < 56 := h.2.2
      omega
    · refine (pad_apply_of_not_inside _ _ _ xs v hp hu (ix4 b ch y x) (2 : Fin 4) (fun h => hyy ?_)).trans (hv _)
      have h1 : 1 ≤ y.val := h.1
      have h3 : (y.val - 1) / (0 + 1) < 56 := h.2.2
      omega

/-! ## The re-laid weights -/

/-- The weights with the two tap axes merged into one of nine and that axis exchanged with the channels:
    entry (o, t, ch) is w[o, ch, t / 3, t % 3]. -/
theorem relaid_at (ws : S64x32x3x3.Idx → EReal) (hs : S64x32x3x3.ShapeCasts S64x32x9)
    (ht : S64x32x9.Transposes [0, 2, 1] S64x9x32) (o : Fin 64) (t : Fin 9) (ch : Fin 32) :
    transpose S64x9x32 [0, 2, 1] (shapeCast S64x32x9 ws hs) ht (ix3 o t ch) = MinPlusConv.at4 ws o ch (t / 3) (t % 3) := by
  have ht9 := t.isLt
  refine (transpose_apply _ _ ht (ix3 o t ch) (ix3 o ch t) (fun b => ?_)).trans ?_
  · match b with
    | ⟨0, _⟩ => rfl
    | ⟨1, _⟩ => rfl
    | ⟨2, _⟩ => rfl
  refine (shapeCast_apply ws hs (ix3 o ch t) (ix4 o ch (⟨t.val / 3, by omega⟩ : Fin 3) (⟨t.val % 3, by omega⟩ : Fin 3)) ?_).trans ?_
  · rw [Shape.rowMajor_val_four, Shape.rowMajor_val_three]
    show ((o.val * 32 + ch.val) * 3 + t.val / 3) * 3 + t.val % 3 = (o.val * 32 + ch.val) * 9 + t.val
    omega
  · rw [MinPlusConv.at4_of_lt ws o.isLt ch.isLt (by omega : t.val / 3 < 3) (by omega : t.val % 3 < 3)]

/-! ## The two staged arrays -/

/-- The first staged array: the zero-padded image times μ. -/
theorem xp_at (c : Dev nD) (b : Fin 4) (ch : Fin 32) (y x : Fin 58) :
    (V m c main_v5 : S4x32x58x58.Idx → EReal) (ix4 b ch y x)
      = MinPlusConv.xpad (m ((c : Thread nD τ).loc main_arg0)) b ch y x * MinPlusConv.mu (m ((c : Thread nD τ).loc main_arg1)) := by
  have e : (V m c main_v5 : S4x32x58x58.Idx → EReal) =
      mulf (F := Ideal) (φ := .f32)
        (pad S4x32x58x58 ![0, 0, 1, 1] ![0, 0, 1, 1] ![0, 0, 0, 0] (m ((c : Thread nD τ).loc main_arg0))
          (sitofp (F := Ideal) .f32 (constantI S_ 32 0#32)) pads_S4x32x56x56_S4x32x58x58_000_000_110_110 h_S_)
        (broadcastInDim S4x32x58x58 ![] bcast_S_S4x32x58x58
          (muHost (m ((c : Thread nD τ).loc main_arg1)) reducesTo_S64x32x3x3_S_d0_1_2_3 h_S_)) := by
    dsimp only [Gen.V]
    simp only [Gen.hostOps0, Gen.hostOps0_1, Gen.hostOps0_2, List.flatten_cons, List.flatten_nil, List.append_nil,
      List.cons_append, List.nil_append]
    after_results
    rfl
  rw [e, mulf_apply, bcast_scalar_apply, muHost_apply]
  refine congrArg (· * _) (pad_at _ _ (fun j => ?_) _ _ b ch y x)
  show (((0#32 : BitVec 32).toInt : ℝ) : EReal) = 0
  simp

/-- The second staged array: the weights with tap and channel axes exchanged, times μ. -/
theorem w9_at (c : Dev nD) (o : Fin 64) (t : Fin 9) (ch : Fin 32) :
    (V m c main_v9 : S64x9x32.Idx → EReal) (ix3 o t ch)
      = MinPlusConv.at4 (m ((c : Thread nD τ).loc main_arg1)) o ch (t / 3) (t % 3) * MinPlusConv.mu (m ((c : Thread nD τ).loc main_arg1)) := by
  have e : (V m c main_v9 : S64x9x32.Idx → EReal) =
      mulf (F := Ideal) (φ := .f32)
        (transpose S64x9x32 [0, 2, 1]
          (shapeCast S64x32x9 (m ((c : Thread nD τ).loc main_arg1)) shapeCasts_S64x32x3x3_S64x32x9)
          transposes_S64x32x9_S64x9x32_0_2_1)
        (broadcastInDim S64x9x32 ![] bcast_S_S64x9x32
          (muHost (m ((c : Thread nD τ).loc main_arg1)) reducesTo_S64x32x3x3_S_d0_1_2_3 h_S_)) := by
    dsimp only [Gen.V]
    simp only [Gen.hostOps0, Gen.hostOps0_1, Gen.hostOps0_2, List.flatten_cons, List.flatten_nil, List.append_nil,
      List.cons_append, List.nil_append]
    after_results
    rfl
  rw [e, mulf_apply, bcast_scalar_apply, muHost_apply]
  exact congrArg (· * _) (relaid_at _ _ _ o t ch)

end Cert.KernelIdeal.HostValue

end
-- ==== Proof.KernelValue.lean ====
/-
  The kernel's result array after the run, as one function of the two arguments.

  The grid has one point per image of the batch. Point t stages image t of the padded, scaled input (window 0), the whole
  re-laid, scaled weight array (window 1, which never moves), and writes back block t of the result (window 2). What the body leaves in
  the output block is the triple sum of minima of the two staged blocks; with the staged arrays read back to the arguments this is
  entry (t, o, h, v) of the arrangement (K) of the specification; the four blocks tile the result array.
-/
import proofs.«123236_j66030827209197_1_alg».proof.Proof.Gen.KernelIdeal.Value
import proofs.«123236_j66030827209197_1_alg».proof.Proof.KernelBody
import proofs.«123236_j66030827209197_1_alg».proof.Proof.KernelHost
import proofs.«123236_j66030827209197_1_alg».proof.Proof.Spec
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)
open scoped BigOperators

namespace Cert.KernelIdeal.KValue

open Cert.KernelIdeal Cert.KernelIdeal.Gen MinPlusConv

variable (m : (ℓ : Loc nD τ sig) → Buf (Elt Ideal) ℓ) (ρ : Dev nD → PrngReg)

/-- The two arguments as the launch finds them. -/
abbrev xs (c : Dev nD) : S4x32x56x56.Idx → EReal := m ((c : Thread nD τ).loc main_arg0)
abbrev ws (c : Dev nD) : S64x32x3x3.Idx → EReal := m ((c : Thread nD τ).loc main_arg1)

/-- The printed index maps over the grid: windows 0 and 2 follow the point on the batch axis and nowhere else; window 1 stays put. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

theorem lt4 (t : Fin cfg0.N) : t.val < 4 := lt_of_lt_of_eq t.isLt (N_0 : cfg0.N = 4)

/-- The image block of point t, read at natural coordinates inside it, is image t of the padded input times μ. -/
theorem xblk_at (c : Dev nD) (t : Fin cfg0.N) (ch y x : ℕ) (hch : ch < 32) (hy : y < 58) (hx : x < 58) :
    at4 (iblk m c 0 t : Vec Ideal S1x32x58x58 .f32) 0 ch y x = xpad (xs m c) t.val ch y x * mu (ws m c) := by
  obtain ⟨e0, e1, e2, e3, -⟩ := idx_facts t
  rw [at4_of_lt _ Nat.one_pos hch hy hx]
  refine Eq.trans ?_ (HostValue.xp_at m c ⟨t.val, lt4 t⟩ ⟨ch, hch⟩ ⟨y, hy⟩ ⟨x, hx⟩)
  unfold iblk
  rw [View.read_apply]
  show (V m c main_v5 : S4x32x58x58.Idx → EReal) _ = V m c main_v5 _
  congr 1
  funext a; apply Fin.ext
  match a with
  | ⟨0, _⟩ => show win0_0.index t (0 : Fin 4) * 1 + 1 * 0 = t.val; omega
  | ⟨1, _⟩ => show win0_0.index t (1 : Fin 4) * 32 + 1 * ch = ch; omega
  | ⟨2, _⟩ => show win0_0.index t (2 : Fin 4) * 58 + 1 * y = y; omega
  | ⟨3, _⟩ => show win0_0.index t (3 : Fin 4) * 58 + 1 * x = x; omega

/-- The weight block of every point is the whole re-laid weight array times μ. -/
theorem wblk_at (c : Dev nD) (t : Fin cfg0.N) (o tt ch : ℕ) (ho : o < 64) (htt : tt < 9) (hch : ch < 32) :
    at3 (iblk m c 1 t : Vec Ideal S64x9x32 .f32) o tt ch = at4 (ws m c) o ch (tt / 3) (tt % 3) * mu (ws m c) := by
  obtain ⟨-, -, -, -, e0, e1, e2, -⟩ := idx_facts t
  rw [at3_of_lt _ ho htt hch]
  refine Eq.trans ?_ (HostValue.w9_at m c ⟨o, ho⟩ ⟨tt, htt⟩ ⟨ch, hch⟩)
  unfold iblk
  rw [View.read_apply]
  show (V m c main_v9 : S64x9x32.Idx → EReal) _ = V m c main_v9 _
  congr 1
  funext a; apply Fin.ext
  match a with
  | ⟨0, _⟩ => show win0_1.index t (0 : Fin 3) * 64 + 1 * o = o; omega
  | ⟨1, _⟩ => show win0_1.index t (1 : Fin 3) * 9 + 1 * tt = tt; omega
  | ⟨2, _⟩ => show win0_1.index t (2 : Fin 3) * 32 + 1 * ch = ch; omega

/-- What the body leaves at point t, entry by entry, is (K) of the arguments at image t. -/
theorem block_at (c : Dev nD) (t : Fin cfg0.N) (j : S1x64x56x56.Idx) :
    out0_A_2 (F := Ideal) c (grid0.coords t) (ms0_0 t) (hs0_0 t) (ms0_1 t) (hs0_1 t) (ms0_2 t) (hs0_2 t) scM0_0 (Memref.isWhole_whole _)
        (iblk m c 0 t) (iblk m c 1 t) j
      = K (xs m c) (ws m c) (ix4 (⟨t.val, lt4 t⟩ : Fin 4) (j 1) (j 2) (j 3)) := by
  obtain ⟨z, o, h, v, rfl⟩ : ∃ (z : Fin 1) (o : Fin 64) (h v : Fin 56), j = ix4 z o h v := ⟨j 0, j 1, j 2, j 3, eq_ix4 j⟩
  refine (Body.body_at c (grid0.coords t) (ms0_0 t) (hs0_0 t) (ms0_1 t) (hs0_1 t) (ms0_2 t) (hs0_2 t) scM0_0 (Memref.isWhole_whole _)
    (iblk m c 0 t) (iblk m c 1 t) z o h v).trans ?_
  unfold K
  refine Finset.sum_congr rfl fun tt _ => Finset.sum_congr rfl fun g _ => Finset.sum_congr rfl fun e _ => ?_
  have htt := tt.isLt
  have hg := g.isLt
  have he := e.isLt
  have hh := h.isLt
  have hv := v.isLt
  exact congrArg₂ min (wblk_at m c t o tt (4 * g + e) o.isLt htt (by omega))
    (xblk_at m c t (4 * g + e) (tt / 3 + h) (tt % 3 + v) (by omega) (by omega) (by omega))

/-- WHAT POINT t WRITES BACK is block t of (K) of the arguments. -/
theorem flushed_eq (c : Dev nD) (t : Fin cfg0.N) :
    (dats m 0 c).flushed 2 t = ((cfg0.win 2).blk t).view.read (Elt Ideal) (K (xs m c) (ws m c)) := by
  rw [Value.flushed2_A]
  obtain ⟨-, -, -, -, -, -, -, e0, e1, e2, e3⟩ := idx_facts t
  funext j
  rw [View.read_apply]
  show out0_A_2 (F := Ideal) c (grid0.coords t) (ms0_0 t) (hs0_0 t) (ms0_1 t) (hs0_1 t) (ms0_2 t) (hs0_2 t) scM0_0 (Memref.isWhole_whole _)
      (iblk m c 0 t) (iblk m c 1 t) ((cfg0.win 2).xinj (grid0.coords t) j) = K (xs m c) (ws m c) (((cfg0.win 2).blk t).view.emb j)
  rw [block_at]
  have hj0 : (j 0).val < 1 := (j 0).isLt
  congr 1
  funext a; apply Fin.ext
  match a with
  | ⟨0, _⟩ => show t.val = win0_2.index t (0 : Fin 4) * 1 + 1 * (j 0).val; omega
  | ⟨1, _⟩ => show (j 1).val = win0_2.index t (1 : Fin 4) * 64 + 1 * (j 1).val; omega
  | ⟨2, _⟩ => show (j 2).val = win0_2.index t (2 : Fin 4) * 56 + 1 * (j 2).val; omega
  | ⟨3, _⟩ => show (j 3).val = win0_2.index t (3 : Fin 4) * 56 + 1 * (j 3).val; omega

/-- THE RESULT ARRAY after the run: the four blocks tile it (entry (b, …) lies in block b), so it is (K) of the arguments. -/
theorem final (c : Dev nD) : (dats m 0 c).arrAt 2 cfg0.N = K (xs m c) (ws m c) :=
  (dats m 0 c).arrAt_eq_of_cover 2 (K (xs m c) (ws m c)) (fun t _ => flushed_eq m c t) fun i => by
    have hi0 : (i 0).val < 4 := (i 0).isLt
    have hi1 : (i 1).val < 64 := (i 1).isLt
    have hi2 : (i 2).val < 56 := (i 2).isLt
    have hi3 : (i 3).val < 56 := (i 3).isLt
    let t : Fin cfg0.N := ⟨(i 0).val, lt_of_lt_of_eq hi0 (N_0 : cfg0.N = 4).symm⟩
    obtain ⟨-, -, -, -, -, -, -, e0, e1, e2, e3⟩ := idx_facts t
    have e0' : win0_2.index t (0 : Fin 4) = (i 0).val := e0
    refine ⟨t, flush0_2 t, ?_⟩
    show i ∈ ((View.whole main_v10).slice (win0_2.rect t)).set
    rw [View.set_slice_whole, Rect.mem_set_unit]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 64 ≤ (i 1).val ∧ (i 1).val < win0_2.index t (1 : Fin 4) * 64 + 64; omega
    | ⟨2, _⟩ => show win0_2.index t (2 : Fin 4) * 56 ≤ (i 2).val ∧ (i 2).val < win0_2.index t (2 : Fin 4) * 56 + 56; omega
    | ⟨3, _⟩ => show win0_2.index t (3 : Fin 4) * 56 ≤ (i 3).val ∧ (i 3).val < win0_2.index t (3 : Fin 4) * 56 + 56; omega

/-- The kernel's run, read: the result array at (K) of the arguments, the arguments unchanged. -/
theorem run : θ_run defs (onTc (τ := τ) (main (F := Ideal))) ⟨m, fun _ => 0, ρ⟩ fun r => ∀ c : Dev nD,
      r.2.mem ((c : Thread nD τ).loc main_v10) = K (xs m c) (ws m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.lean ====
/-
  The certificate of the min-plus "convolution" kernel against its jnp reference, over the extended reals.

  Both programs compute, for an image x : [4, 32, 56, 56] and weights w : [64, 32, 3, 3],
      z[b, o, h, v] = μ · Σ_{c, i, j} min( x̄[b, c, h + i, v + j] , w[o, c, i, j] ),     μ = mean |w|,
  x̄ being x padded by one ring of zeros. The reference unfolds the 3×3 patches, takes the minimum against the flattened weights,
  sums the 288 patch positions and scales by μ (Spec.lean's arrangement G). The kernel scales the padded image and the re-laid
  weights by μ on the host, and per image accumulates, tap by tap and four channels at a time, the sums of the minima of the
  scaled operands (arrangement K). The two agree because μ is a non-negative REAL under the precondition (finite weights):
  multiplication by it is monotone, so commutes with min, and distributes over sums of extended reals (Algebra.lean).

    frame_Kernel, frame_KernelIdeal — the generated frames.
    frame_ReferenceIdeal — the reference's generated run with its result dropped.
    preserves_Kernel_KernelIdeal — the ideal pass rewrote nothing: True.
    algebraic_KernelIdeal_ReferenceIdeal — the kernel's result array is K of the arguments (KernelBody.lean: what the body leaves
      in a block; KernelHost.lean: the two staged arrays; KernelValue.lean: the blocks tile the result), the reference's is G
      (RefValue.lean), μ is a non-negative real (MuReal.lean), and K = G then (Algebra.lean).
-/
import proofs.«123236_j66030827209197_1_alg».proof.Defs
import proofs.«123236_j66030827209197_1_alg».proof.Proof.Gen.Kernel
import proofs.«123236_j66030827209197_1_alg».proof.Proof.Gen.Kernel.Skeleton
import proofs.«123236_j66030827209197_1_alg».proof.Proof.Gen.Kernel.Launch
import proofs.«123236_j66030827209197_1_alg».proof.Proof.Gen.Kernel.Points
import proofs.«123236_j66030827209197_1_alg».proof.Proof.Gen.Kernel.Frame
import proofs.«123236_j66030827209197_1_alg».proof.Proof.Gen.KernelIdeal
import proofs.«123236_j66030827209197_1_alg».proof.Proof.Gen.KernelIdeal.Skeleton
import proofs.«123236_j66030827209197_1_alg».proof.Proof.Gen.KernelIdeal.Launch
import proofs.«123236_j66030827209197_1_alg».proof.Proof.Gen.KernelIdeal.Points
import proofs.«123236_j66030827209197_1_alg».proof.Proof.Gen.KernelIdeal.Frame
import proofs.«123236_j66030827209197_1_alg».proof.Proof.Gen.ReferenceIdeal
import proofs.«123236_j66030827209197_1_alg».proof.Proof.Gen.Pre_finite_inputs
import proofs.«123236_j66030827209197_1_alg».proof.Proof.Gen.KernelIdeal.Value
import proofs.«123236_j66030827209197_1_alg».proof.Proof.Gen.ReferenceIdeal.Run
import proofs.«123236_j66030827209197_1_alg».proof.Proof.Gen.ReferenceIdeal.Read
import proofs.«123236_j66030827209197_1_alg».proof.Proof.Spec
import proofs.«123236_j66030827209197_1_alg».proof.Proof.Algebra
import proofs.«123236_j66030827209197_1_alg».proof.Proof.RefValue
import proofs.«123236_j66030827209197_1_alg».proof.Proof.MuReal
import proofs.«123236_j66030827209197_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments the kernel's result array ends at K of them and the reference's at G of them; under the
    precondition μ is a non-negative real, and then K = G. -/
theorem algebraic : Cert.algebraic_KernelIdeal_ReferenceIdeal := by
  intro m ρ m' ρ' hpre hagree
  refine ⟨fun c => MinPlusConv.K (Cert.KernelIdeal.KValue.xs m c) (Cert.KernelIdeal.KValue.ws m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v33_eq m' c).trans (Cert.ReferenceIdeal.RefValue.ref_eq_G _ _)).trans ?_
  rw [(hagree c).1, (hagree c).2]
  exact (MinPlusConv.K_eq_G _ _ (Cert.KernelIdeal.MuReal.mu_real m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
